-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x1433 : Shape := ⟨2, ![150000, 1433]⟩
abbrev S4800000 : Shape := ⟨1, ![4800000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S150000x1433 : S_.BroadcastsInDim S150000x1433 (![] : Fin 0 → Fin S150000x1433.rank)
  reducesTo_S150000x1433_S_d0_1 : S150000x1433.ReducesTo [0, 1] S_
  h_S_ : 0 < S_.numel
  bcast_S_S4800000 : S_.BroadcastsInDim S4800000 (![] : Fin 0 → Fin S4800000.rank)
  reducesTo_S4800000_S_d0 : S4800000.ReducesTo [0] S_
  bcast_S_S1433x16 : S_.BroadcastsInDim S1433x16 (![] : Fin 0 → Fin S1433x16.rank)
  reducesTo_S1433x16_S_d0_1 : S1433x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_v28 : IVec S_ 1) (main_v33 : IVec S4800000 1) : IVec S_ 1 :=
  let main_c_12 : IVec S_ 1 := constantI S_ 1 1#1
  let main_v34 : IVec S_ 1 := (fun x v => Host.reduce IntOp.andi x v reducesTo_S4800000_S_d0 h_S_) main_v33 main_c_12
  let main_v35 : IVec S_ 1 := andi main_v28 main_v34
  main_v35

def fn_part1 {F : FTy → Type} [FloatOps F] (main_arg1 : IVec S4800000 32) (main_arg6 : FVec F S16x7 .f32) (main_arg7 : FVec F S7 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x7 .f32 := Host.absf main_arg6
  let main_cst_6 : FVec F S_ .f32 := constant S_ .f32 0x7F800000#32
  let main_v20 : FVec F S16x7 .f32 := broadcastInDim S16x7 ![] bcast_S_S16x7 main_cst_6
  let main_v21 : IVec S16x7 1 := cmpf .olt main_v19 main_v20
  let main_c_7 : IVec S_ 1 := constantI S_ 1 1#1
  let main_v22 : IVec S_ 1 := (fun x v => Host.reduce IntOp.andi x v reducesTo_S16x7_S_d0_1 h_S_) main_v21 main_c_7
  let main_v23 : IVec S_ 1 := andi main_v18 main_v22
  let main_v24 : FVec F S7 .f32 := Host.absf main_arg7
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  let main_c_10 : IVec S_ 32 := constantI S_ 32 0#32
  let main_v29 : IVec S4800000 32 := broadcastInDim S4800000 ![] bcast_S_S4800000 main_c_10
  let main_v30 : IVec S4800000 1 := cmpi .sge main_arg1 main_v29
  let main_c_11 : IVec S_ 32 := constantI S_ 32 150000#32
  let main_v31 : IVec S4800000 32 := broadcastInDim S4800000 ![] bcast_S_S4800000 main_c_11
  let main_v32 : IVec S4800000 1 := cmpi .slt main_arg1 main_v31
  let main_v33 : IVec S4800000 1 := andi main_v30 main_v32
  fn_part2 (F := F) main_v28 main_v33

def fn {F : FTy → Type} [FloatOps F] (main_arg0 : FVec F S150000x1433 .f32) (main_arg1 : IVec S4800000 32) (main_arg2 : IVec S4800000 32) (main_arg3 : FVec F S4800000 .f32) (main_arg4 : FVec F S1433x16 .f32) (main_arg5 : FVec F S16 .f32) (main_arg6 : FVec F S16x7 .f32) (main_arg7 : FVec F S7 .f32) : IVec S_ 1 :=
  let main_v0 : FVec F S150000x1433 .f32 := Host.absf main_arg0
  let main_cst : FVec F S_ .f32 := constant S_ .f32 0x7F800000#32
  let main_v1 : FVec F S150000x1433 .f32 := broadcastInDim S150000x1433 ![] bcast_S_S150000x1433 main_cst
  let main_v2 : IVec S150000x1433 1 := cmpf .olt main_v0 main_v1
  let main_c : IVec S_ 1 := constantI S_ 1 1#1
  let main_v3 : IVec S_ 1 := (fun x v => Host.reduce IntOp.andi x v reducesTo_S150000x1433_S_d0_1 h_S_) main_v2 main_c
  let main_v4 : FVec F S4800000 .f32 := Host.absf main_arg3
  let main_cst_0 : FVec F S_ .f32 := constant S_ .f32 0x7F800000#32
  let main_v5 : FVec F S4800000 .f32 := broadcastInDim S4800000 ![] bcast_S_S4800000 main_cst_0
  let main_v6 : IVec S4800000 1 := cmpf .olt main_v4 main_v5
  let main_c_1 : IVec S_ 1 := constantI S_ 1 1#1
  let main_v7 : IVec S_ 1 := (fun x v => Host.reduce IntOp.andi x v reducesTo_S4800000_S_d0 h_S_) main_v6 main_c_1
  let main_v8 : IVec S_ 1 := andi main_v3 main_v7
  let main_v9 : FVec F S1433x16 .f32 := Host.absf main_arg4
  let main_cst_2 : FVec F S_ .f32 := constant S_ .f32 0x7F800000#32
  let main_v10 : FVec F S1433x16 .f32 := broadcastInDim S1433x16 ![] bcast_S_S1433x16 main_cst_2
  let main_v11 : IVec S1433x16 1 := cmpf .olt main_v9 main_v10
  let main_c_3 : IVec S_ 1 := constantI S_ 1 1#1
  let main_v12 : IVec S_ 1 := (fun x v => Host.reduce IntOp.andi x v reducesTo_S1433x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg6 main_arg7 main_v13 main_v16
-- ==== Kernel.lean ====
abbrev S150000x1433 : Shape := ⟨2, ![150000, 1433]⟩
abbrev S4800000 : Shape := ⟨1, ![4800000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S150000x16 : Shape := ⟨2, ![150000, 16]⟩
abbrev S1200x1433 : Shape := ⟨2, ![1200, 1433]⟩
abbrev S1200x16 : Shape := ⟨2, ![1200, 16]⟩
abbrev S4800000x1 : Shape := ⟨2, ![4800000, 1]⟩
abbrev S_ : Shape := ⟨0, ![]⟩
abbrev S1 : Shape := ⟨1, ![1]⟩
abbrev S1x1 : Shape := ⟨2, ![1, 1]⟩
abbrev S4800000x16 : Shape := ⟨2, ![4800000, 16]⟩
abbrev S1x16 : Shape := ⟨2, ![1, 16]⟩
abbrev S150000x7 : Shape := ⟨2, ![150000, 7]⟩
abbrev S1200x7 : Shape := ⟨2, ![1200, 7]⟩
abbrev S4800000x7 : Shape := ⟨2, ![4800000, 7]⟩
abbrev S1x7 : Shape := ⟨2, ![1, 7]⟩
abbrev S150000 : Shape := ⟨1, ![150000]⟩
abbrev S150000x1 : Shape := ⟨2, ![150000, 1]⟩

abbrev nBuf : Space → Nat
  | .hbm => 94
  | .vmem => 10
  | .smem => 0
  | _ => 0

abbrev bufTy : (tb : Table) → Fin (tcTables nBuf tb) → BufTy
  | .hbm, ⟨0, _⟩ => ⟨S150000x1433, .f32⟩
  | .hbm, ⟨1, _⟩ => ⟨S4800000, .i32⟩
  | .hbm, ⟨2, _⟩ => ⟨S4800000, .i32⟩
  | .hbm, ⟨3, _⟩ => ⟨S4800000, .f32⟩
  | .hbm, ⟨4, _⟩ => ⟨S1433x16, .f32⟩
  | .hbm, ⟨5, _⟩ => ⟨S16, .f32⟩
  | .hbm, ⟨6, _⟩ => ⟨S16x7, .f32⟩
  | .hbm, ⟨7, _⟩ => ⟨S7, .f32⟩
  | .hbm, ⟨8, _⟩ => ⟨S150000x16, .f32⟩
  | .hbm, ⟨9, _⟩ => ⟨S4800000x1, .f32⟩
  | .hbm, ⟨10, _⟩ => ⟨S_, .i32⟩
  | .hbm, ⟨11, _⟩ => ⟨S4800000, .i32⟩
  | .hbm, ⟨12, _⟩ => ⟨S4800000, .i1⟩
  | .hbm, ⟨13, _⟩ => ⟨S_, .i32⟩
  | .hbm, ⟨14, _⟩ => ⟨S4800000, .i32⟩
  | .hbm, ⟨15, _⟩ => ⟨S4800000, .i32⟩
  | .hbm, ⟨16, _⟩ => ⟨S4800000, .i32⟩
  | .hbm, ⟨17, _⟩ => ⟨S4800000x1, .i32⟩
  | .hbm, ⟨18, _⟩ => ⟨S1, .i32⟩
  | .hbm, ⟨19, _⟩ => ⟨S_, .i32⟩
  | .hbm, ⟨20, _⟩ => ⟨S4800000x1, .i32⟩
  | .hbm, ⟨21, _⟩ => ⟨S4800000x1, .i1⟩
  | .hbm, ⟨22, _⟩ => ⟨S1x1, .i32⟩
  | .hbm, ⟨23, _⟩ => ⟨S4800000x1, .i32⟩
  | .hbm, ⟨24, _⟩ => ⟨S4800000x1, .i1⟩
  | .hbm, ⟨25, _⟩ => ⟨S4800000x1, .i1⟩
  | .hbm, ⟨26, _⟩ => ⟨S_, .i1⟩
  | .hbm, ⟨27, _⟩ => ⟨S4800000, .i1⟩
  | .hbm, ⟨28, _⟩ => ⟨S4800000x16, .f32⟩
  | .hbm, ⟨29, _⟩ => ⟨S4800000x16, .i1⟩
  | .hbm, ⟨30, _⟩ => ⟨S_, .f32⟩
  | .hbm, ⟨31, _⟩ => ⟨S4800000x16, .f32⟩
  | .hbm, ⟨32, _⟩ => ⟨S4800000x16, .f32⟩
  | .hbm, ⟨33, _⟩ => ⟨S4800000x16, .f32⟩
  | .hbm, ⟨34, _⟩ => ⟨S4800000x16, .f32⟩
  | .hbm, ⟨35, _⟩ => ⟨S_, .f32⟩
  | .hbm, ⟨36, _⟩ => ⟨S150000x16, .f32⟩
  | .hbm, ⟨37, _⟩ => ⟨S4800000x1, .i32⟩
  | .hbm, ⟨38, _⟩ => ⟨S150000x16, .f32⟩
  | .hbm, ⟨39, _⟩ => ⟨S1x16, .f32⟩
  | .hbm, ⟨40, _⟩ => ⟨S150000x16, .f32⟩
  | .hbm, ⟨41, _⟩ => ⟨S150000x16, .f32⟩
  | .hbm, ⟨42, _⟩ => ⟨S_, .f32⟩
  | .hbm, ⟨43, _⟩ => ⟨S150000x16, .f32⟩
  | .hbm, ⟨44, _⟩ => ⟨S150000x16, .f32⟩
  | .hbm, ⟨45, _⟩ => ⟨S150000x7, .f32⟩
  | .hbm, ⟨46, _⟩ => ⟨S4800000x1, .f32⟩
  | .hbm, ⟨47, _⟩ => ⟨S_, .i32⟩
  | .hbm, ⟨48, _⟩ => ⟨S4800000, .i32⟩
  | .hbm, ⟨49, _⟩ => ⟨S4800000, .i1⟩
  | .hbm, ⟨50, _⟩ => ⟨S_, .i32⟩
  | .hbm, ⟨51, _⟩ => ⟨S4800000, .i32⟩
  | .hbm, ⟨52, _⟩ => ⟨S4800000, .i32⟩
  | .hbm, ⟨53, _⟩ => ⟨S4800000, .i32⟩
  | .hbm, ⟨54, _⟩ => ⟨S4800000x1, .i32⟩
  | .hbm, ⟨55, _⟩ => ⟨S1, .i32⟩
  | .hbm, ⟨56, _⟩ => ⟨S_, .i32⟩
  | .hbm, ⟨57, _⟩ => ⟨S4800000x1, .i32⟩
  | .hbm, ⟨58, _⟩ => ⟨S4800000x1, .i1⟩
  | .hbm, ⟨59, _⟩ => ⟨S1x1, .i32⟩
  | .hbm, ⟨60, _⟩ => ⟨S4800000x1, .i32⟩
  | .hbm, ⟨61, _⟩ => ⟨S4800000x1, .i1⟩
  | .hbm, ⟨62, _⟩ => ⟨S4800000x1, .i1⟩
  | .hbm, ⟨63, _⟩ => ⟨S_, .i1⟩
  | .hbm, ⟨64, _⟩ => ⟨S4800000, .i1⟩
  | .hbm, ⟨65, _⟩ => ⟨S4800000x7, .f32⟩
  | .hbm, ⟨66, _⟩ => ⟨S4800000x7, .i1⟩
  | .hbm, ⟨67, _⟩ => ⟨S_, .f32⟩
  | .hbm, ⟨68, _⟩ => ⟨S4800000x7, .f32⟩
  | .hbm, ⟨69, _⟩ => ⟨S4800000x7, .f32⟩
  | .hbm, ⟨70, _⟩ => ⟨S4800000x7, .f32⟩
  | .hbm, ⟨71, _⟩ => ⟨S4800000x7, .f32⟩
  | .hbm, ⟨72, _⟩ => ⟨S_, .f32⟩
  | .hbm, ⟨73, _⟩ => ⟨S150000x7, .f32⟩
  | .hbm, ⟨74, _⟩ => ⟨S4800000x1, .i32⟩
  | .hbm, ⟨75, _⟩ => ⟨S150000x7, .f32⟩
  | .hbm, ⟨76, _⟩ => ⟨S1x7, .f32⟩
  | .hbm, ⟨77, _⟩ => ⟨S150000x7, .f32⟩
  | .hbm, ⟨78, _⟩ => ⟨S150000x7, .f32⟩
  | .hbm, ⟨79, _⟩ => ⟨S_, .f32⟩
  | .hbm, ⟨80, _⟩ => ⟨S150000, .f32⟩
  | .hbm, ⟨81, _⟩ => ⟨S_, .f32⟩
  | .hbm, ⟨82, _⟩ => ⟨S150000, .f32⟩
  | .hbm, ⟨83, _⟩ => ⟨S150000, .f32⟩
  | .hbm, ⟨84, _⟩ => ⟨S150000x1, .f32⟩
  | .hbm, ⟨85, _⟩ => ⟨S150000x7, .f32⟩
  | .hbm, ⟨86, _⟩ => ⟨S150000x7, .f32⟩
  | .hbm, ⟨87, _⟩ => ⟨S150000x7, .f32⟩
  | .hbm, ⟨88, _⟩ => ⟨S_, .f32⟩
  | .hbm, ⟨89, _⟩ => ⟨S150000, .f32⟩
  | .hbm, ⟨90, _⟩ => ⟨S150000x1, .f32⟩
  | .hbm, ⟨91, _⟩ => ⟨S150000x1, .f32⟩
  | .hbm, ⟨92, _⟩ => ⟨S150000x7, .f32⟩
  | .hbm, ⟨93, _⟩ => ⟨S150000x7, .f32⟩
  | .local _ .vmem, ⟨0, _⟩ => ⟨S1200x1433, .f32⟩
  | .local _ .vmem, ⟨1, _⟩ => ⟨S1200x1433, .f32⟩
  | .local _ .vmem, ⟨2, _⟩ => ⟨S1433x16, .f32⟩
  | .local _ .vmem, ⟨3, _⟩ => ⟨S1200x16, .f32⟩
  | .local _ .vmem, ⟨4, _⟩ => ⟨S1200x16, .f32⟩
  | .local _ .vmem, ⟨5, _⟩ => ⟨S1200x16, .f32⟩
  | .local _ .vmem, ⟨6, _⟩ => ⟨S1200x16, .f32⟩
  | .local _ .vmem, ⟨7, _⟩ => ⟨S16x7, .f32⟩
  | .local _ .vmem, ⟨8, _⟩ => ⟨S1200x7, .f32⟩
  | .local _ .vmem, ⟨9, _⟩ => ⟨S1200x7, .f32⟩
  | _, _ => ⟨S150000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_call1_cst : Ref sig .tc := ⟨.hbm, 42, rfl⟩
abbrev main_call1_v0 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_call2_cst : Ref sig .tc := ⟨.hbm, 67, rfl⟩
abbrev main_call2_v15 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_cst_0 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_call3_cst : Ref sig .tc := ⟨.hbm, 79, rfl⟩
abbrev main_call3_v0 : Ref sig .tc := ⟨.hbm, 80, rfl⟩
abbrev main_call3_cst_0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_v6 : Ref sig .tc := ⟨.hbm, 87, rfl⟩
abbrev main_call3_cst_1 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_v23 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1200x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1200x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1200x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1200x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1200x1433_S1200x1433_0_0 : ∀ a, (![0, 0] : Fin 2 → Nat) a + S1200x1433.size a ≤ S1200x1433.size a
  h_S1200x1433 : 0 < S1200x1433.numel
  inb_S1433x16_S1433x16_0_0 : ∀ a, (![0, 0] : Fin 2 → Nat) a + S1433x16.size a ≤ S1433x16.size a
  h_S1433x16 : 0 < S1433x16.numel
  inb_S1200x16_S1200x16_0_0 : ∀ a, (![0, 0] : Fin 2 → Nat) a + S1200x16.size a ≤ S1200x16.size a
  h_S1200x16 : 0 < S1200x16.numel
  bcast_S4800000_S4800000x1_0 : S4800000.BroadcastsInDim S4800000x1 (![0] : Fin 1 → Fin S4800000x1.rank)
  bcast_S_S4800000 : S_.BroadcastsInDim S4800000 (![] : Fin 0 → Fin S4800000.rank)
  bcast_S_S4800000x1 : S_.BroadcastsInDim S4800000x1 (![] : Fin 0 → Fin S4800000x1.rank)
  bcast_S1_S1x1_1 : S1.BroadcastsInDim S1x1 (![1] : Fin 1 → Fin S1x1.rank)
  bcast_S1x1_S4800000x1_0_1 : S1x1.BroadcastsInDim S4800000x1 (![0, 1] : Fin 2 → Fin S4800000x1.rank)
  reducesTo_S4800000x1_S4800000_d1 : S4800000x1.ReducesTo [1] S4800000
  h_S_ : 0 < S_.numel
  bcast_S4800000_S4800000x16_0 : S4800000.BroadcastsInDim S4800000x16 (![0] : Fin 1 → Fin S4800000x16.rank)
  bcast_S_S4800000x16 : S_.BroadcastsInDim S4800000x16 (![] : Fin 0 → Fin S4800000x16.rank)
  bcast_S4800000x1_S4800000x16_0_1 : S4800000x1.BroadcastsInDim S4800000x16 (![0, 1] : Fin 2 → Fin S4800000x16.rank)
  bcast_S_S150000x16 : S_.BroadcastsInDim S150000x16 (![] : Fin 0 → Fin S150000x16.rank)
  bcast_S16_S1x16_1 : S16.BroadcastsInDim S1x16 (![1] : Fin 1 → Fin S1x16.rank)
  bcast_S1x16_S150000x16_0_1 : S1x16.BroadcastsInDim S150000x16 (![0, 1] : Fin 2 → Fin S150000x16.rank)
  shapeCasts_S1200x16_S1200x16 : S1200x16.ShapeCasts S1200x16
  inb_S16x7_S16x7_0_0 : ∀ a, (![0, 0] : Fin 2 → Nat) a + S16x7.size a ≤ S16x7.size a
  h_S16x7 : 0 < S16x7.numel
  inb_S1200x7_S1200x7_0_0 : ∀ a, (![0, 0] : Fin 2 → Nat) a + S1200x7.size a ≤ S1200x7.size a
  h_S1200x7 : 0 < S1200x7.numel
  bcast_S4800000_S4800000x7_0 : S4800000.BroadcastsInDim S4800000x7 (![0] : Fin 1 → Fin S4800000x7.rank)
  bcast_S_S4800000x7 : S_.BroadcastsInDim S4800000x7 (![] : Fin 0 → Fin S4800000x7.rank)
  bcast_S4800000x1_S4800000x7_0_1 : S4800000x1.BroadcastsInDim S4800000x7 (![0, 1] : Fin 2 → Fin S4800000x7.rank)
  bcast_S_S150000x7 : S_.BroadcastsInDim S150000x7 (![] : Fin 0 → Fin S150000x7.rank)
  bcast_S7_S1x7_1 : S7.BroadcastsInDim S1x7 (![1] : Fin 1 → Fin S1x7.rank)
  bcast_S1x7_S150000x7_0_1 : S1x7.BroadcastsInDim S150000x7 (![0, 1] : Fin 2 → Fin S150000x7.rank)
  reducesTo_S150000x7_S150000_d1 : S150000x7.ReducesTo [1] S150000
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x7_0_1 : S150000x1.BroadcastsInDim S150000x7 (![0, 1] : Fin 2 → Fin S150000x7.rank)
  dot_S1200x1433_S1433x16_S1200x16_1_0_0_1_n_n_wf : DotDims.WF S1200x1433 S1433x16 S1200x16 [1] [0] [0] [1] [] []
  gather_S150000x16_S4800000x1_S4800000x16_1_0_n_n_0_1_116_wf : GatherDims.WF S150000x16 S4800000x1 S4800000x16 [1] [0] [] [0] [] 1 ![1, 16]
  scatter_S150000x16_S4800000x1_S4800000x16_1_0_0_1_wf : ScatterDims.WF S150000x16 S4800000x1 S4800000x16 [1] [0] [0] 1
  dot_S1200x16_S16x7_S1200x7_1_0_0_1_n_n_wf : DotDims.WF S1200x16 S16x7 S1200x7 [1] [0] [0] [1] [] []
  gather_S150000x7_S4800000x1_S4800000x7_1_0_n_n_0_1_17_wf : GatherDims.WF S150000x7 S4800000x1 S4800000x7 [1] [0] [] [0] [] 1 ![1, 7]
  scatter_S150000x7_S4800000x1_S4800000x7_1_0_0_1_wf : ScatterDims.WF S150000x7 S4800000x1 S4800000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1200x1433.size a ≤ S150000x1433.size a
  hwx0_0 : ∀ i : grid0.Coords, EltTy.bits .f32 = 32 ∨ (Rect.block (s := S150000x1433) S1200x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x16.size a ≤ S1433x16.size a
  hwx0_1 : ∀ i : grid0.Coords, EltTy.bits .f32 = 32 ∨ (Rect.block (s := S1433x16) S1433x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1200x16.size a ≤ S150000x16.size a
  hwx0_2 : ∀ i : grid0.Coords, EltTy.bits .f32 = 32 ∨ (Rect.block (s := S150000x16) S1200x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1200x16.size a ≤ S150000x16.size a
  hwx1_0 : ∀ i : grid1.Coords, EltTy.bits .f32 = 32 ∨ (Rect.block (s := S150000x16) S1200x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1200x7.size a ≤ S150000x7.size a
  hwx1_2 : ∀ i : grid1.Coords, EltTy.bits .f32 = 32 ∨ (Rect.block (s := S150000x7) S1200x7.size (cc1_transform_2 i) (hinb1_2 i)).WholeWords (EltTy.packing .f32)

variable [Facts₀]

def dot_S1200x1433_S1433x16_S1200x16_1_0_0_1_n_n : DotDims S1200x1433 S1433x16 S1200x16 where
  lhsContracting := [1]
  rhsContracting := [0]
  lhsNonContracting := [0]
  rhsNonContracting := [1]
  lhsBatch := []
  rhsBatch := []
  wf := dot_S1200x1433_S1433x16_S1200x16_1_0_0_1_n_n_wf
def gather_S150000x16_S4800000x1_S4800000x16_1_0_n_n_0_1_116 : GatherDims S150000x16 S4800000x1 S4800000x16 where
  offsetDims := [1]
  collapsedSliceDims := [0]
  operandBatchingDims := []
  startIndicesBatchingDims := []
  startIndexMap := [0]
  indexVectorDim := 1
  sliceSizes := ![1, 16]
  wf := gather_S150000x16_S4800000x1_S4800000x16_1_0_n_n_0_1_116_wf
def scatter_S150000x16_S4800000x1_S4800000x16_1_0_0_1 : ScatterDims S150000x16 S4800000x1 S4800000x16 where
  updateWindowDims := [1]
  insertedWindowDims := [0]
  scatterDimsToOperandDims := [0]
  indexVectorDim := 1
  wf := scatter_S150000x16_S4800000x1_S4800000x16_1_0_0_1_wf
def dot_S1200x16_S16x7_S1200x7_1_0_0_1_n_n : DotDims S1200x16 S16x7 S1200x7 where
  lhsContracting := [1]
  rhsContracting := [0]
  lhsNonContracting := [0]
  rhsNonContracting := [1]
  lhsBatch := []
  rhsBatch := []
  wf := dot_S1200x16_S16x7_S1200x7_1_0_0_1_n_n_wf
def gather_S150000x7_S4800000x1_S4800000x7_1_0_n_n_0_1_17 : GatherDims S150000x7 S4800000x1 S4800000x7 where
  offsetDims := [1]
  collapsedSliceDims := [0]
  operandBatchingDims := []
  startIndicesBatchingDims := []
  startIndexMap := [0]
  indexVectorDim := 1
  sliceSizes := ![1, 7]
  wf := gather_S150000x7_S4800000x1_S4800000x7_1_0_n_n_0_1_17_wf
def scatter_S150000x7_S4800000x1_S4800000x7_1_0_0_1 : ScatterDims S150000x7 S4800000x1 S4800000x7 where
  updateWindowDims := [1]
  insertedWindowDims := [0]
  scatterDimsToOperandDims := [0]
  indexVectorDim := 1
  wf := scatter_S150000x7_S4800000x1_S4800000x7_1_0_0_1_wf

abbrev win0_0 : Pipeline.Window sig grid0 :=
  Pipeline.Window.ofSpec (Memref.whole main_arg0) S1200x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1433x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1200x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S1200x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1200x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S150000x1433 : Shape := ⟨2, ![150000, 1433]⟩
abbrev S4800000 : Shape := ⟨1, ![4800000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S150000x16 : Shape := ⟨2, ![150000, 16]⟩
abbrev S4800000x1 : Shape := ⟨2, ![4800000, 1]⟩
abbrev S_ : Shape := ⟨0, ![]⟩
abbrev S4800000x16 : Shape := ⟨2, ![4800000, 16]⟩
abbrev S1x16 : Shape := ⟨2, ![1, 16]⟩
abbrev S150000x7 : Shape := ⟨2, ![150000, 7]⟩
abbrev S4800000x7 : Shape := ⟨2, ![4800000, 7]⟩
abbrev S1x7 : Shape := ⟨2, ![1, 7]⟩
abbrev S150000 : Shape := ⟨1, ![150000]⟩
abbrev S150000x1 : Shape := ⟨2, ![150000, 1]⟩

abbrev nBuf : Space → Nat
  | .hbm => 66
  | .vmem => 0
  | .smem => 0
  | _ => 0

abbrev bufTy : (tb : Table) → Fin (tcTables nBuf tb) → BufTy
  | .hbm, ⟨0, _⟩ => ⟨S150000x1433, .f32⟩
  | .hbm, ⟨1, _⟩ => ⟨S4800000, .i32⟩
  | .hbm, ⟨2, _⟩ => ⟨S4800000, .i32⟩
  | .hbm, ⟨3, _⟩ => ⟨S4800000, .f32⟩
  | .hbm, ⟨4, _⟩ => ⟨S1433x16, .f32⟩
  | .hbm, ⟨5, _⟩ => ⟨S16, .f32⟩
  | .hbm, ⟨6, _⟩ => ⟨S16x7, .f32⟩
  | .hbm, ⟨7, _⟩ => ⟨S7, .f32⟩
  | .hbm, ⟨8, _⟩ => ⟨S150000x16, .f32⟩
  | .hbm, ⟨9, _⟩ => ⟨S4800000x1, .f32⟩
  | .hbm, ⟨10, _⟩ => ⟨S_, .i32⟩
  | .hbm, ⟨11, _⟩ => ⟨S4800000, .i32⟩
  | .hbm, ⟨12, _⟩ => ⟨S4800000, .i1⟩
  | .hbm, ⟨13, _⟩ => ⟨S_, .i32⟩
  | .hbm, ⟨14, _⟩ => ⟨S4800000, .i32⟩
  | .hbm, ⟨15, _⟩ => ⟨S4800000, .i32⟩
  | .hbm, ⟨16, _⟩ => ⟨S4800000, .i32⟩
  | .hbm, ⟨17, _⟩ => ⟨S4800000x1, .i32⟩
  | .hbm, ⟨18, _⟩ => ⟨S4800000x16, .f32⟩
  | .hbm, ⟨19, _⟩ => ⟨S4800000x16, .f32⟩
  | .hbm, ⟨20, _⟩ => ⟨S4800000x16, .f32⟩
  | .hbm, ⟨21, _⟩ => ⟨S_, .f32⟩
  | .hbm, ⟨22, _⟩ => ⟨S150000x16, .f32⟩
  | .hbm, ⟨23, _⟩ => ⟨S4800000x1, .i32⟩
  | .hbm, ⟨24, _⟩ => ⟨S150000x16, .f32⟩
  | .hbm, ⟨25, _⟩ => ⟨S1x16, .f32⟩
  | .hbm, ⟨26, _⟩ => ⟨S150000x16, .f32⟩
  | .hbm, ⟨27, _⟩ => ⟨S150000x16, .f32⟩
  | .hbm, ⟨28, _⟩ => ⟨S_, .f32⟩
  | .hbm, ⟨29, _⟩ => ⟨S150000x16, .f32⟩
  | .hbm, ⟨30, _⟩ => ⟨S150000x16, .f32⟩
  | .hbm, ⟨31, _⟩ => ⟨S150000x7, .f32⟩
  | .hbm, ⟨32, _⟩ => ⟨S4800000x1, .f32⟩
  | .hbm, ⟨33, _⟩ => ⟨S_, .i32⟩
  | .hbm, ⟨34, _⟩ => ⟨S4800000, .i32⟩
  | .hbm, ⟨35, _⟩ => ⟨S4800000, .i1⟩
  | .hbm, ⟨36, _⟩ => ⟨S_, .i32⟩
  | .hbm, ⟨37, _⟩ => ⟨S4800000, .i32⟩
  | .hbm, ⟨38, _⟩ => ⟨S4800000, .i32⟩
  | .hbm, ⟨39, _⟩ => ⟨S4800000, .i32⟩
  | .hbm, ⟨40, _⟩ => ⟨S4800000x1, .i32⟩
  | .hbm, ⟨41, _⟩ => ⟨S4800000x7, .f32⟩
  | .hbm, ⟨42, _⟩ => ⟨S4800000x7, .f32⟩
  | .hbm, ⟨43, _⟩ => ⟨S4800000x7, .f32⟩
  | .hbm, ⟨44, _⟩ => ⟨S_, .f32⟩
  | .hbm, ⟨45, _⟩ => ⟨S150000x7, .f32⟩
  | .hbm, ⟨46, _⟩ => ⟨S4800000x1, .i32⟩
  | .hbm, ⟨47, _⟩ => ⟨S150000x7, .f32⟩
  | .hbm, ⟨48, _⟩ => ⟨S1x7, .f32⟩
  | .hbm, ⟨49, _⟩ => ⟨S150000x7, .f32⟩
  | .hbm, ⟨50, _⟩ => ⟨S150000x7, .f32⟩
  | .hbm, ⟨51, _⟩ => ⟨S_, .f32⟩
  | .hbm, ⟨52, _⟩ => ⟨S150000, .f32⟩
  | .hbm, ⟨53, _⟩ => ⟨S_, .f32⟩
  | .hbm, ⟨54, _⟩ => ⟨S150000, .f32⟩
  | .hbm, ⟨55, _⟩ => ⟨S150000, .f32⟩
  | .hbm, ⟨56, _⟩ => ⟨S150000x1, .f32⟩
  | .hbm, ⟨57, _⟩ => ⟨S150000x7, .f32⟩
  | .hbm, ⟨58, _⟩ => ⟨S150000x7, .f32⟩
  | .hbm, ⟨59, _⟩ => ⟨S150000x7, .f32⟩
  | .hbm, ⟨60, _⟩ => ⟨S_, .f32⟩
  | .hbm, ⟨61, _⟩ => ⟨S150000, .f32⟩
  | .hbm, ⟨62, _⟩ => ⟨S150000x1, .f32⟩
  | .hbm, ⟨63, _⟩ => ⟨S150000x1, .f32⟩
  | .hbm, ⟨64, _⟩ => ⟨S150000x7, .f32⟩
  | .hbm, ⟨65, _⟩ => ⟨S150000x7, .f32⟩
  | _, _ => ⟨S150000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_call1_cst_0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_cst_1 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_v35 : Ref sig .tc := ⟨.hbm, 65, rfl⟩

abbrev nD : Nat := 1
abbrev τ : Topo := Topo.v7x

variable {F : FTy → Type} [FloatOps F]

class Facts₀ : Prop where
  bcast_S4800000_S4800000x1_0 : S4800000.BroadcastsInDim S4800000x1 (![0] : Fin 1 → Fin S4800000x1.rank)
  bcast_S_S4800000 : S_.BroadcastsInDim S4800000 (![] : Fin 0 → Fin S4800000.rank)
  bcast_S4800000x1_S4800000x16_0_1 : S4800000x1.BroadcastsInDim S4800000x16 (![0, 1] : Fin 2 → Fin S4800000x16.rank)
  bcast_S_S150000x16 : S_.BroadcastsInDim S150000x16 (![] : Fin 0 → Fin S150000x16.rank)
  bcast_S16_S1x16_1 : S16.BroadcastsInDim S1x16 (![1] : Fin 1 → Fin S1x16.rank)
  bcast_S1x16_S150000x16_0_1 : S1x16.BroadcastsInDim S150000x16 (![0, 1] : Fin 2 → Fin S150000x16.rank)
  bcast_S4800000x1_S4800000x7_0_1 : S4800000x1.BroadcastsInDim S4800000x7 (![0, 1] : Fin 2 → Fin S4800000x7.rank)
  bcast_S_S150000x7 : S_.BroadcastsInDim S150000x7 (![] : Fin 0 → Fin S150000x7.rank)
  bcast_S7_S1x7_1 : S7.BroadcastsInDim S1x7 (![1] : Fin 1 → Fin S1x7.rank)
  bcast_S1x7_S150000x7_0_1 : S1x7.BroadcastsInDim S150000x7 (![0, 1] : Fin 2 → Fin S150000x7.rank)
  reducesTo_S150000x7_S150000_d1 : S150000x7.ReducesTo [1] S150000
  h_S_ : 0 < S_.numel
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x7_0_1 : S150000x1.BroadcastsInDim S150000x7 (![0, 1] : Fin 2 → Fin S150000x7.rank)
  dot_S150000x1433_S1433x16_S150000x16_1_0_0_1_n_n_wf : DotDims.WF S150000x1433 S1433x16 S150000x16 [1] [0] [0] [1] [] []
  gather_S150000x16_S4800000x1_S4800000x16_1_0_n_n_0_1_116_wf : GatherDims.WF S150000x16 S4800000x1 S4800000x16 [1] [0] [] [0] [] 1 ![1, 16]
  scatter_S150000x16_S4800000x1_S4800000x16_1_0_0_1_wf : ScatterDims.WF S150000x16 S4800000x1 S4800000x16 [1] [0] [0] 1
  dot_S150000x16_S16x7_S150000x7_1_0_0_1_n_n_wf : DotDims.WF S150000x16 S16x7 S150000x7 [1] [0] [0] [1] [] []
  gather_S150000x7_S4800000x1_S4800000x7_1_0_n_n_0_1_17_wf : GatherDims.WF S150000x7 S4800000x1 S4800000x7 [1] [0] [] [0] [] 1 ![1, 7]
  scatter_S150000x7_S4800000x1_S4800000x7_1_0_0_1_wf : ScatterDims.WF S150000x7 S4800000x1 S4800000x7 [1] [0] [0] 1

variable [Facts₀]

def dot_S150000x1433_S1433x16_S150000x16_1_0_0_1_n_n : DotDims S150000x1433 S1433x16 S150000x16 where
  lhsContracting := [1]
  rhsContracting := [0]
  lhsNonContracting := [0]
  rhsNonContracting := [1]
  lhsBatch := []
  rhsBatch := []
  wf := dot_S150000x1433_S1433x16_S150000x16_1_0_0_1_n_n_wf
def gather_S150000x16_S4800000x1_S4800000x16_1_0_n_n_0_1_116 : GatherDims S150000x16 S4800000x1 S4800000x16 where
  offsetDims := [1]
  collapsedSliceDims := [0]
  operandBatchingDims := []
  startIndicesBatchingDims := []
  startIndexMap := [0]
  indexVectorDim := 1
  sliceSizes := ![1, 16]
  wf := gather_S150000x16_S4800000x1_S4800000x16_1_0_n_n_0_1_116_wf
def scatter_S150000x16_S4800000x1_S4800000x16_1_0_0_1 : ScatterDims S150000x16 S4800000x1 S4800000x16 where
  updateWindowDims := [1]
  insertedWindowDims := [0]
  scatterDimsToOperandDims := [0]
  indexVectorDim := 1
  wf := scatter_S150000x16_S4800000x1_S4800000x16_1_0_0_1_wf
def dot_S150000x16_S16x7_S150000x7_1_0_0_1_n_n : DotDims S150000x16 S16x7 S150000x7 where
  lhsContracting := [1]
  rhsContracting := [0]
  lhsNonContracting := [0]
  rhsNonContracting := [1]
  lhsBatch := []
  rhsBatch := []
  wf := dot_S150000x16_S16x7_S150000x7_1_0_0_1_n_n_wf
def gather_S150000x7_S4800000x1_S4800000x7_1_0_n_n_0_1_17 : GatherDims S150000x7 S4800000x1 S4800000x7 where
  offsetDims := [1]
  collapsedSliceDims := [0]
  operandBatchingDims := []
  startIndicesBatchingDims := []
  startIndexMap := [0]
  indexVectorDim := 1
  sliceSizes := ![1, 7]
  wf := gather_S150000x7_S4800000x1_S4800000x7_1_0_n_n_0_1_17_wf
def scatter_S150000x7_S4800000x1_S4800000x7_1_0_0_1 : ScatterDims S150000x7 S4800000x1 S4800000x7 where
  updateWindowDims := [1]
  insertedWindowDims := [0]
  scatterDimsToOperandDims := [0]
  indexVectorDim := 1
  wf := scatter_S150000x7_S4800000x1_S4800000x7_1_0_0_1_wf

class Facts : Prop extends Facts₀ where

variable [Facts]
-- ==== Proof.IndexRange.lean ====
/-
  The added precondition, read back. The printed predicate ends in the conjunct
  all ((edge_src >= 0) & (edge_src < 150000)): a reduction by "and" of the elementwise conjunction of two signed
  comparisons of the source-index words. When the whole predicate is 1 that reduction is 1, so every element of the
  conjunction is 1, and a 32-bit word that is signed-nonnegative and signed-below 150000 has (unsigned) value below 150000.
-/
import proofs.«411638_j26044681682965_2_alg».proof.Pre_finite_inputs
import proofs.«411638_j26044681682965_2_alg».proof.Proof.Gen.Pre_finite_inputs
import Idealize.ShloMosaic.Lib.ReduceAll
import Idealize.ShloMosaic.Lib.StableHlo.Predicate

namespace Cert.IndexRange

open Idealize.ShloMosaic

/-- A 32-bit word that compares signed ≥ 0 and signed < 150000 has value below 150000: from the first comparison its
    sign bit is clear, so its signed and unsigned readings agree, and the second comparison bounds that reading. -/
theorem toNat_lt_of_range (x : BitVec 32)
    (h : IntOp.andi (IntOp.cmpi .sge x 0#32) (IntOp.cmpi .slt x 150000#32) = 1#1) : x.toNat < 150000 := by
  obtain ⟨h0, h1⟩ := IntOp.andi_eq_one.1 h
  rw [IntOp.cmpi_sge, show (0#32 : BitVec 32).toInt = 0 from by decide] at h0
  rw [IntOp.cmpi_slt, show (150000#32 : BitVec 32).toInt = 150000 from by decide] at h1
  have hlt : 2 * x.toNat < 2 ^ 32 := BitVec.toInt_pos_iff.1 h0
  rw [BitVec.toInt_eq_toNat_of_lt hlt] at h1
  omega

/-- The rank-0 shape has one index. -/
instance : Subsingleton Cert.Pre_finite_inputs.S_.Idx := ⟨fun a b => funext fun d => d.elim0⟩

/-- Under the printed precondition every source index lies in [0, 150000). -/
theorem src_lt {F : FTy → Type} [FloatOps F]
    (a0 : FVec F Cert.Pre_finite_inputs.S150000x1433 .f32) (a1 a2 : IVec Cert.Pre_finite_inputs.S4800000 32)
    (a3 : FVec F Cert.Pre_finite_inputs.S4800000 .f32) (a4 : FVec F Cert.Pre_finite_inputs.S1433x16 .f32) (a5 : FVec F Cert.Pre_finite_inputs.S16 .f32)
    (a6 : FVec F Cert.Pre_finite_inputs.S16x7 .f32) (a7 : FVec F Cert.Pre_finite_inputs.S7 .f32)
    (h : Cert.Pre_finite_inputs.fn (F := F) a0 a1 a2 a3 a4 a5 a6 a7 = fun _ => 1#1) :
    ∀ e : Cert.Pre_finite_inputs.S4800000.Idx, (a1 e).toNat < 150000 := by
  intro e
  -- the predicate at its one index
  have h0 := congrFun h (fun d => d.elim0)
  -- the whole predicate is (everything before) ∧ (the reduction over the source indices)
  simp only [Cert.Pre_finite_inputs.fn, Cert.Pre_finite_inputs.fn_part1, Cert.Pre_finite_inputs.fn_part2] at h0
  have h1 := (IntOp.andi_eq_one.1 h0).2
  -- a reduction by "and" into one index that is 1 met a 1 at every element
  have h2 := Host.reduce_andi_all _ _ _ _ _ h1 e
  exact toNat_lt_of_range (a1 e) h2

end Cert.IndexRange
-- ==== Proof.KernelTails.lean ====
/-
  The host arithmetic around the two matrix products, named once. Both programs, after each product `xw`, gather the
  rows `xw[src[e]]` (a negative index counted from the end), scale row e by `adj[e]`, add the scaled rows into the rows
  `dst[e]` of a zero array, and add the bias; the first layer then clamps at zero, the second takes the row-wise
  log-softmax. The kernel program's gather is `jnp.take` in fill mode: it computes, per edge, whether the start index
  lies in [0, 149999] and substitutes a fill value where it does not. Everything after the gather is the same
  text in both programs, so it is carried as one function of the gathered rows (`agg16`, `agg7`).
-/
import proofs.«411638_j26044681682965_2_alg».proof.KernelIdeal
import proofs.«411638_j26044681682965_2_alg».proof.Proof.Gen.KernelIdeal

noncomputable section

namespace Cert.KernelIdeal.Tails

open Cert.KernelIdeal Cert.KernelIdeal.Gen Idealize.ShloMosaic

variable {F : FTy → Type} [FloatOps F]

/-- The start indices as a column: `src[e] + 150000` where `src[e]` is negative, else `src[e]`. -/
def startIdx (src : IVec S4800000 32) : IVec S4800000x1 32 :=
  broadcastInDim S4800000x1 ![0] bcast_S4800000_S4800000x1_0
    (select (cmpi .slt src (broadcastInDim S4800000 ![] bcast_S_S4800000 (constantI S_ 32 0#32)))
      (addi src (broadcastInDim S4800000 ![] bcast_S_S4800000 (constantI S_ 32 150000#32))) src)

/-- Fill mode's test, per edge: 0 ≤ start index ≤ 149999 (a conjunction over the index column's one entry). -/
def inBounds (src : IVec S4800000 32) : IVec S4800000 1 :=
  Host.reduce IntOp.andi
    (andi (cmpi .sge (startIdx src) (broadcastInDim S4800000x1 ![] bcast_S_S4800000x1 (constantI S_ 32 0#32)))
      (cmpi .sle (startIdx src) (broadcastInDim S4800000x1 ![0, 1] bcast_S1x1_S4800000x1_0_1
        (broadcastInDim S1x1 ![1] bcast_S1_S1x1_1 (constantI S1 32 149999#32)))))
    (constantI S_ 1 1#1) reducesTo_S4800000x1_S4800000_d1 h_S_

/-- The plain gather of rows of a 16-column table. -/
def gather16 (xw : FVec F S150000x16 .f32) (src : IVec S4800000 32) : FVec F S4800000x16 .f32 :=
  Host.gather gather_S150000x16_S4800000x1_S4800000x16_1_0_n_n_0_1_116 xw (startIdx src)

/-- Fill mode's gather of rows of a 16-column table: the gathered row where the index is in bounds, the fill value elsewhere. -/
def take16 (xw : FVec F S150000x16 .f32) (src : IVec S4800000 32) : FVec F S4800000x16 .f32 :=
  select (broadcastInDim S4800000x16 ![0] bcast_S4800000_S4800000x16_0 (inBounds src)) (gather16 xw src)
    (broadcastInDim S4800000x16 ![] bcast_S_S4800000x16 (constant S_ .f32 0x7FC00000#32))

/-- The plain gather of rows of a 7-column table. -/
def gather7 (xw : FVec F S150000x7 .f32) (src : IVec S4800000 32) : FVec F S4800000x7 .f32 :=
  Host.gather gather_S150000x7_S4800000x1_S4800000x7_1_0_n_n_0_1_17 xw (startIdx src)

/-- Fill mode's gather of rows of a 7-column table. -/
def take7 (xw : FVec F S150000x7 .f32) (src : IVec S4800000 32) : FVec F S4800000x7 .f32 :=
  select (broadcastInDim S4800000x7 ![0] bcast_S4800000_S4800000x7_0 (inBounds src)) (gather7 xw src)
    (broadcastInDim S4800000x7 ![] bcast_S_S4800000x7 (constant S_ .f32 0x7FC00000#32))

/-- Layer one after the gather: relu (segment_sum (adj · rows, dst) + b1). -/
def agg16 (g : FVec F S4800000x16 .f32) (dst : IVec S4800000 32) (adj : FVec F S4800000 .f32) (b1 : FVec F S16 .f32) :
    FVec F S150000x16 .f32 :=
  maximumf
    (addf
      (Host.scatterAdd scatter_S150000x16_S4800000x1_S4800000x16_1_0_0_1
        (broadcastInDim S150000x16 ![] bcast_S_S150000x16 (constant S_ .f32 0x00000000#32))
        (broadcastInDim S4800000x1 ![0] bcast_S4800000_S4800000x1_0 dst)
        (mulf (broadcastInDim S4800000x16 ![0, 1] bcast_S4800000x1_S4800000x16_0_1
          (broadcastInDim S4800000x1 ![0] bcast_S4800000_S4800000x1_0 adj)) g))
      (broadcastInDim S150000x16 ![0, 1] bcast_S1x16_S150000x16_0_1 (broadcastInDim S1x16 ![1] bcast_S16_S1x16_1 b1)))
    (broadcastInDim S150000x16 ![] bcast_S_S150000x16 (constant S_ .f32 0x00000000#32))

/-- The row-wise log-softmax of a 7-column array, as jax prints it: x − max − log ∑ exp (x − max). -/
def logSoftmax7 (h : FVec F S150000x7 .f32) : FVec F S150000x7 .f32 :=
  subf
    (subf h (broadcastInDim S150000x7 ![0, 1] bcast_S150000x1_S150000x7_0_1 (broadcastInDim S150000x1 ![0] bcast_S150000_S150000x1_0
      (maximumf (broadcastInDim S150000 ![] bcast_S_S150000 (constant S_ .f32 0xFF800000#32))
        (Host.reduce FloatOps.maximumf h (constant S_ .f32 0xFF800000#32) reducesTo_S150000x7_S150000_d1 h_S_)))))
    (broadcastInDim S150000x7 ![0, 1] bcast_S150000x1_S150000x7_0_1 (Host.log (broadcastInDim S150000x1 ![0] bcast_S150000_S150000x1_0
      (Host.reduceAdd (Host.exp
        (subf h (broadcastInDim S150000x7 ![0, 1] bcast_S150000x1_S150000x7_0_1 (broadcastInDim S150000x1 ![0] bcast_S150000_S150000x1_0
          (maximumf (broadcastInDim S150000 ![] bcast_S_S150000 (constant S_ .f32 0xFF800000#32))
            (Host.reduce FloatOps.maximumf h (constant S_ .f32 0xFF800000#32) reducesTo_S150000x7_S150000_d1 h_S_))))))
        (constant S_ .f32 0x00000000#32) reducesTo_S150000x7_S150000_d1 h_S_))))

/-- Layer two after the gather: log_softmax (segment_sum (adj · rows, dst) + b2). -/
def agg7 (g : FVec F S4800000x7 .f32) (dst : IVec S4800000 32) (adj : FVec F S4800000 .f32) (b2 : FVec F S7 .f32) :
    FVec F S150000x7 .f32 :=
  logSoftmax7
    (addf
      (Host.scatterAdd scatter_S150000x7_S4800000x1_S4800000x7_1_0_0_1
        (broadcastInDim S150000x7 ![] bcast_S_S150000x7 (constant S_ .f32 0x00000000#32))
        (broadcastInDim S4800000x1 ![0] bcast_S4800000_S4800000x1_0 dst)
        (mulf (broadcastInDim S4800000x7 ![0, 1] bcast_S4800000x1_S4800000x7_0_1
          (broadcastInDim S4800000x1 ![0] bcast_S4800000_S4800000x1_0 adj)) g))
      (broadcastInDim S150000x7 ![0, 1] bcast_S1x7_S150000x7_0_1 (broadcastInDim S1x7 ![1] bcast_S7_S1x7_1 b2)))

end Cert.KernelIdeal.Tails

end
-- ==== Proof.Spec.lean ====
/-
  The matrix product both programs compute twice, as one function over the extended reals: entry (r, c) of
  `mm x w` is the sum over k of x[r, k] · w[k, c]. A kernel region that multiplies row blocks of `x` by the whole
  of `w` and the host's `dot_general` of the whole arrays are both this function at `Ideal`.
-/
import Idealize.ShloMosaic.PureOps.Ideal.Laws
import Idealize.ShloMosaic.Lib.ValueIdx

noncomputable section

namespace Cert.Spec

open Idealize.ShloMosaic

/-- Row `r`, column `k` of an [M × K] array. -/
abbrev at2 {M K : Nat} (r : Fin M) (k : Fin K) : (⟨2, ![M, K]⟩ : Shape).Idx := ValueIdx.ix2 r k

/-- The product of an [M × K] array with a [K × N] array: entry (r, c) is ∑ₖ x[r, k] · w[k, c]. -/
def mm {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (at2 (⟨(i 0).val, (i 0).isLt⟩ : Fin M) k) * w (at2 k (⟨(i 1).val, (i 1).isLt⟩ : Fin N))

theorem mm_apply {M K N : Nat} (x : (⟨2, ![M, K]⟩ : Shape).Idx → EReal) (w : (⟨2, ![K, N]⟩ : Shape).Idx → EReal)
    (i : (⟨2, ![M, N]⟩ : Shape).Idx) :
    mm x w i = ∑ k : Fin K, x (at2 (⟨(i 0).val, (i 0).isLt⟩ : Fin M) k) * w (at2 k (⟨(i 1).val, (i 1).isLt⟩ : Fin N)) := rfl

end Cert.Spec

end
-- ==== Proof.Region0Value.lean ====
/-
  Region 0 as one matrix product. The region multiplies the 150000 × 1433 array by the 1433 × 16 array in 125 row
  blocks of 1200 rows: at grid point t the body reads rows 1200·t … 1200·t + 1199 of the left array and the whole right
  array, and writes the 1200 × 16 product to the same rows of the output. Entry (r, c) of a block's product is
  ∑ₖ x[r, k] · w[k, c] over the extended reals; row r of the output lies in block r / 1200, and every block is
  written back, so after the last point the output array is the product of the two whole arrays, entry by entry.
-/
import proofs.«411638_j26044681682965_2_alg».proof.Proof.Gen.KernelIdeal.Frame
import proofs.«411638_j26044681682965_2_alg».proof.Proof.Spec
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## One block: the body's product at an index -/

/-- The left operand's row coordinate at output index `i` is `i`'s row. -/
theorem lhs0_row (i : S1200x16.Idx) (q : dot_S1200x1433_S1433x16_S1200x16_1_0_0_1_n_n.contr.Idx) :
    (dot_S1200x1433_S1433x16_S1200x16_1_0_0_1_n_n.lhsIdx i q 0).val = (i 0).val := by
  unfold DotDims.lhsIdx
  rw [dif_neg (show ¬(0 : Fin S1200x1433.rank) ∈ dot_S1200x1433_S1433x16_S1200x16_1_0_0_1_n_n.lhsBatch by decide), dif_pos (show (0 : Fin S1200x1433.rank) ∈ dot_S1200x1433_S1433x16_S1200x16_1_0_0_1_n_n.lhsNonContracting by decide)]
  rfl
/-- The left operand's column coordinate is the contraction index. -/
theorem lhs0_col (i : S1200x16.Idx) (q : dot_S1200x1433_S1433x16_S1200x16_1_0_0_1_n_n.contr.Idx) :
    (dot_S1200x1433_S1433x16_S1200x16_1_0_0_1_n_n.lhsIdx i q 1).val = (q ⟨0, by decide⟩).val :=
  dot_S1200x1433_S1433x16_S1200x16_1_0_0_1_n_n.lhsIdx_val_of_single rfl i q
/-- The right operand's row coordinate is the contraction index. -/
theorem rhs0_row (i : S1200x16.Idx) (q : dot_S1200x1433_S1433x16_S1200x16_1_0_0_1_n_n.contr.Idx) :
    (dot_S1200x1433_S1433x16_S1200x16_1_0_0_1_n_n.rhsIdx i q 0).val = (q ⟨0, by decide⟩).val :=
  dot_S1200x1433_S1433x16_S1200x16_1_0_0_1_n_n.rhsIdx_val_of_single rfl i q
/-- The right operand's column coordinate at output index `i` is `i`'s column. -/
theorem rhs0_col (i : S1200x16.Idx) (q : dot_S1200x1433_S1433x16_S1200x16_1_0_0_1_n_n.contr.Idx) :
    (dot_S1200x1433_S1433x16_S1200x16_1_0_0_1_n_n.rhsIdx i q 1).val = (i 1).val := by
  unfold DotDims.rhsIdx
  rw [dif_neg (show ¬(1 : Fin S1433x16.rank) ∈ dot_S1200x1433_S1433x16_S1200x16_1_0_0_1_n_n.rhsBatch by decide), dif_pos (show (1 : Fin S1433x16.rank) ∈ dot_S1200x1433_S1433x16_S1200x16_1_0_0_1_n_n.rhsNonContracting by decide)]
  rfl

/-- Entry (r, c) of the body's product of a 1200 × 1433 block with a 1433 × 16 block is ∑ₖ x0[r, k] · x1[k, c]:
    the accumulator is the zero splat, and the one contraction axis is re-indexed by its coordinate. -/
theorem block_mm (x0 : Vec Ideal S1200x1433 .f32) (x1 : Vec Ideal S1433x16 .f32) (j : S1200x16.Idx) :
    k0_pay1 x0 x1 j = ∑ k : Fin 1433, x0 (ix2 (⟨(j 0).val, (j 0).isLt⟩ : Fin 1200) k) * x1 (ix2 k (⟨(j 1).val, (j 1).isLt⟩ : Fin 16)) := by
  unfold k0_pay1
  refine (Ideal.matmul_constant_zero_apply dot_S1200x1433_S1433x16_S1200x16_1_0_0_1_n_n none x0 x1 j).trans ?_
  rw [← Equiv.sum_comp (ValueIdx.contrEquiv1 dot_S1200x1433_S1433x16_S1200x16_1_0_0_1_n_n 1433 rfl rfl).symm]
  refine Finset.sum_congr rfl fun k _ => ?_
  have hk := ValueIdx.contrEquiv1_symm_val dot_S1200x1433_S1433x16_S1200x16_1_0_0_1_n_n 1433 rfl rfl k
  have el : dot_S1200x1433_S1433x16_S1200x16_1_0_0_1_n_n.lhsIdx j ((ValueIdx.contrEquiv1 dot_S1200x1433_S1433x16_S1200x16_1_0_0_1_n_n 1433 rfl rfl).symm k) = ix2 (⟨(j 0).val, (j 0).isLt⟩ : Fin 1200) k := funext fun a => Fin.ext (by
    match a with
    | ⟨0, _⟩ => exact lhs0_row _ _
    | ⟨1, _⟩ => exact (lhs0_col _ _).trans hk)
  have er : dot_S1200x1433_S1433x16_S1200x16_1_0_0_1_n_n.rhsIdx j ((ValueIdx.contrEquiv1 dot_S1200x1433_S1433x16_S1200x16_1_0_0_1_n_n 1433 rfl rfl).symm k) = ix2 k (⟨(j 1).val, (j 1).isLt⟩ : Fin 16) := funext fun a => Fin.ext (by
    match a with
    | ⟨0, _⟩ => exact (rhs0_row _ _).trans hk
    | ⟨1, _⟩ => exact rhs0_col _ _)
  rw [el, er]

/-! ## From blocks to the array -/

theorem origin2 : (![0, 0] : Fin 2 → Nat) = fun _ => 0 := funext fun a => by fin_cases a <;> rfl

/-- The printed index maps, decided over the 125 grid points: the left operand's block is on the output block's row
    of blocks and at column block 0, the right operand's block is the whole array, and the output's block at point
    `t` is row block `t`, column block 0. -/
theorem index_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the product of the two whole arrays as the region finds them. -/
theorem flushed_eq0 (c : Dev nD) (t : Fin cfg0.N) :
    (dat0 (F := Ideal) V c).flushed 2 t
      = ((cfg0.win 2).blk t).view.read (Elt Ideal) (Cert.Spec.mm (M := 150000) (K := 1433) (N := 16) (V c main_arg0) (V c main_arg4)) := by
  show (cfg0.win 2).cut (grid0.coords t) ((dat0 V c).after 2 t) = _
  rw [after0_2]
  unfold out0_2
  rw [View.canon_unit_zero origin2]
  simp only [View.ld_unit_zero (S := S1200x1433) origin2, View.ld_unit_zero (S := S1433x16) origin2]
  obtain ⟨e0, e1, e2, e3, e4, e5⟩ := index_facts0 t
  funext j
  show k0_pay1 (iblk0 V c 0 t) (iblk0 V c 1 t) (win0_2.xinj (grid0.coords t) j) = Cert.Spec.mm (M := 150000) (K := 1433) (N := 16) (V c main_arg0) (V c main_arg4) (((cfg0.win 2).blk t).view.emb j)
  refine (block_mm _ _ _).trans ?_
  rw [Cert.Spec.mm_apply]
  refine Finset.sum_congr rfl fun k _ => ?_
  have h0 : ((cfg0.win 0).blk t).view.emb (ix2 (⟨(j 0).val, (j 0).isLt⟩ : Fin 1200) k)
      = Cert.Spec.at2 (⟨((((cfg0.win 2).blk t).view.emb j) 0).val, ((((cfg0.win 2).blk t).view.emb j) 0).isLt⟩ : Fin 150000) k := by
    funext a; apply Fin.ext
    match a with
    | ⟨0, _⟩ => show win0_0.index t (0 : Fin 2) * 1200 + 1 * (j 0).val = win0_2.index t (0 : Fin 2) * 1200 + 1 * (j 0).val; rw [e0]
    | ⟨1, _⟩ => show win0_0.index t (1 : Fin 2) * 1433 + 1 * k.val = k.val; omega
  have h1 : ((cfg0.win 1).blk t).view.emb (ix2 k (⟨(j 1).val, (j 1).isLt⟩ : Fin 16))
      = Cert.Spec.at2 k (⟨((((cfg0.win 2).blk t).view.emb j) 1).val, ((((cfg0.win 2).blk t).view.emb j) 1).isLt⟩ : Fin 16) := by
    funext a; apply Fin.ext
    match a with
    | ⟨0, _⟩ => show win0_1.index t (0 : Fin 2) * 1433 + 1 * k.val = k.val; omega
    | ⟨1, _⟩ => show win0_1.index t (1 : Fin 2) * 16 + 1 * (j 1).val = win0_2.index t (1 : Fin 2) * 16 + 1 * (j 1).val; omega
  exact congrArg₂ (· * ·) (congrArg (V c main_arg0) h0) (congrArg (V c main_arg4) h1)

/-- An index of the array is in point `t`'s block iff each coordinate is in the block's range on its axis. -/
theorem mem_blk0 (t : Fin cfg0.N) (i : S150000x16.Idx) :
    i ∈ ((cfg0.win 2).blk t).view.set ↔ ∀ a : Fin 2, win0_2.index t a * S1200x16.size a ≤ (i a).val ∧ (i a).val < win0_2.index t a * S1200x16.size a + S1200x16.size a := by
  show i ∈ ((View.whole main_v0).slice (win0_2.rect t)).set ↔ _
  rw [View.set_slice_whole, Rect.mem_set_unit]
  exact Iff.rfl

/-- Every index of the array is in the block of the point its row falls in: row `r` lies in row block `r / 1200`,
    and every point writes its block back. -/
theorem cover0 (i : S150000x16.Idx) :
    ∃ t : Fin cfg0.N, (cfg0.win 2).flush t = true ∧ i ∈ ((cfg0.win 2).blk t).view.set := by
  have hi0 : (i 0).val < 150000 := (i 0).isLt
  have hi1 : (i 1).val < 16 := (i 1).isLt
  have hN : (i 0).val / 1200 < cfg0.N := by
    show (i 0).val / 1200 < grid0.N
    rw [N_0]; omega
  obtain ⟨e0, e1, e2, e3, e4, e5⟩ := index_facts0 ⟨(i 0).val / 1200, hN⟩
  have e4' : win0_2.index ⟨(i 0).val / 1200, hN⟩ (0 : Fin 2) = (i 0).val / 1200 := e4
  refine ⟨⟨(i 0).val / 1200, hN⟩, flush0_2 _, ?_⟩
  rw [mem_blk0]
  intro a
  match a with
  | ⟨0, _⟩ =>
    show win0_2.index ⟨(i 0).val / 1200, hN⟩ (0 : Fin 2) * 1200 ≤ (i 0).val ∧ (i 0).val < win0_2.index ⟨(i 0).val / 1200, hN⟩ (0 : Fin 2) * 1200 + 1200
    omega
  | ⟨1, _⟩ =>
    show win0_2.index ⟨(i 0).val / 1200, hN⟩ (1 : Fin 2) * 16 ≤ (i 1).val ∧ (i 1).val < win0_2.index ⟨(i 0).val / 1200, hN⟩ (1 : Fin 2) * 16 + 16
    omega

/-- REGION 0's output array after its 125 write-backs is the product of the two whole arrays the region finds. -/
theorem region0_value (c : Dev nD) :
    (dat0 (F := Ideal) V c).arrAt 2 cfg0.N = Cert.Spec.mm (M := 150000) (K := 1433) (N := 16) (V c main_arg0) (V c main_arg4) :=
  (dat0 V c).arrAt_eq_of_cover 2 _ (fun t _ => flushed_eq0 V c t) cover0

end Cert.KernelIdeal.RegionValue

end
-- ==== Proof.Block1MM.lean ====
/-
  The second matmul region's body at one block: the product of a [1200 × 16] block with the [16 × 7] weights.
  The body casts the block to its own shape (the identity) and multiplies into a zero accumulator, contracting
  axis 1 of the left operand with axis 0 of the right and with no batch axis; so entry (r, c) of the result is
  the sum over k of x0[r, k] · x1[k, c]. Four coordinate facts of the shape record, one per operand axis, and
  the one-axis contraction index set read as `Fin 16` (`ValueIdx.contrEquiv1`).
-/
import proofs.«411638_j26044681682965_2_alg».proof.Proof.Gen.KernelIdeal.Skeleton
import proofs.«411638_j26044681682965_2_alg».proof.Proof.Spec
import Idealize.ShloMosaic.Lib.ValueIdx
import Idealize.ShloMosaic.Lib.Pipeline.Value
import Idealize.ShloMosaic.PureOps.Ideal.Laws

noncomputable section

namespace Cert.KernelIdeal.RegionValue

open Cert.KernelIdeal Cert.KernelIdeal.Gen Idealize.ShloMosaic Idealize.ShloMosaic.ValueIdx

/-- Left operand, axis 0: the output's row. -/
theorem lhsB1_0 (j : S1200x7.Idx) (q : dot_S1200x16_S16x7_S1200x7_1_0_0_1_n_n.contr.Idx) :
    (dot_S1200x16_S16x7_S1200x7_1_0_0_1_n_n.lhsIdx j q 0).val = (j 0).val := by
  unfold DotDims.lhsIdx
  rw [dif_neg (show ¬(0 : Fin S1200x16.rank) ∈ dot_S1200x16_S16x7_S1200x7_1_0_0_1_n_n.lhsBatch by decide),
    dif_pos (show (0 : Fin S1200x16.rank) ∈ dot_S1200x16_S16x7_S1200x7_1_0_0_1_n_n.lhsNonContracting by decide)]
  rfl
/-- Left operand, axis 1: the contraction index. -/
theorem lhsB1_1 (j : S1200x7.Idx) (q : dot_S1200x16_S16x7_S1200x7_1_0_0_1_n_n.contr.Idx) :
    (dot_S1200x16_S16x7_S1200x7_1_0_0_1_n_n.lhsIdx j q 1).val = (q ⟨0, by decide⟩).val :=
  dot_S1200x16_S16x7_S1200x7_1_0_0_1_n_n.lhsIdx_val_of_single rfl j q
/-- Right operand, axis 0: the contraction index. -/
theorem rhsB1_0 (j : S1200x7.Idx) (q : dot_S1200x16_S16x7_S1200x7_1_0_0_1_n_n.contr.Idx) :
    (dot_S1200x16_S16x7_S1200x7_1_0_0_1_n_n.rhsIdx j q 0).val = (q ⟨0, by decide⟩).val :=
  dot_S1200x16_S16x7_S1200x7_1_0_0_1_n_n.rhsIdx_val_of_single rfl j q
/-- Right operand, axis 1: the output's column. -/
theorem rhsB1_1 (j : S1200x7.Idx) (q : dot_S1200x16_S16x7_S1200x7_1_0_0_1_n_n.contr.Idx) :
    (dot_S1200x16_S16x7_S1200x7_1_0_0_1_n_n.rhsIdx j q 1).val = (j 1).val := by
  unfold DotDims.rhsIdx
  rw [dif_neg (show ¬(1 : Fin S16x7.rank) ∈ dot_S1200x16_S16x7_S1200x7_1_0_0_1_n_n.rhsBatch by decide),
    dif_pos (show (1 : Fin S16x7.rank) ∈ dot_S1200x16_S16x7_S1200x7_1_0_0_1_n_n.rhsNonContracting by decide)]
  rfl

/-- The body's value at an index of the block: the sum over the sixteen contracted positions. -/
theorem block1_mm (x0 : Vec Ideal S1200x16 .f32) (x1 : Vec Ideal S16x7 .f32) (j : S1200x7.Idx) :
    k1_pay1 (F := Ideal) x0 x1 j = ∑ k : Fin 16, x0 (ix2 (⟨(j 0).val, (j 0).isLt⟩ : Fin 1200) k) * x1 (ix2 k (⟨(j 1).val, (j 1).isLt⟩ : Fin 7)) := by
  unfold k1_pay1
  rw [shapeCast_self]
  refine (Ideal.matmul_constant_zero_apply dot_S1200x16_S16x7_S1200x7_1_0_0_1_n_n none x0 x1 j).trans ?_
  rw [← Equiv.sum_comp (contrEquiv1 dot_S1200x16_S16x7_S1200x7_1_0_0_1_n_n 16 rfl rfl).symm]
  refine Finset.sum_congr rfl fun k _ => ?_
  have hk := contrEquiv1_symm_val dot_S1200x16_S16x7_S1200x7_1_0_0_1_n_n 16 rfl rfl k
  have el : dot_S1200x16_S16x7_S1200x7_1_0_0_1_n_n.lhsIdx j ((contrEquiv1 dot_S1200x16_S16x7_S1200x7_1_0_0_1_n_n 16 rfl rfl).symm k)
      = ix2 (⟨(j 0).val, (j 0).isLt⟩ : Fin 1200) k := funext fun a => Fin.ext (by
    match a with
    | ⟨0, _⟩ => exact lhsB1_0 _ _
    | ⟨1, _⟩ => exact (lhsB1_1 _ _).trans hk)
  have er : dot_S1200x16_S16x7_S1200x7_1_0_0_1_n_n.rhsIdx j ((contrEquiv1 dot_S1200x16_S16x7_S1200x7_1_0_0_1_n_n 16 rfl rfl).symm k)
      = ix2 k (⟨(j 1).val, (j 1).isLt⟩ : Fin 7) := funext fun a => Fin.ext (by
    match a with
    | ⟨0, _⟩ => exact (rhsB1_0 _ _).trans hk
    | ⟨1, _⟩ => exact rhsB1_1 _ _)
  rw [el, er]

end Cert.KernelIdeal.RegionValue

end
-- ==== Proof.Region1Value.lean ====
/-
  Region 1 as one matrix product. The region multiplies the 150000 × 16 array by the 16 × 7 array in 125 row
  blocks of 1200 rows: at grid point t the body reads rows 1200·t … 1200·t + 1199 of the left array and the whole right
  array, and writes the 1200 × 7 product to the same rows of the output. Entry (r, c) of a block's product is
  ∑ₖ x[r, k] · w[k, c] over the extended reals (the block lemma); row r of the output lies in block r / 1200, and
  every block is written back, so after the last point the output array is the product of the two whole arrays,
  entry by entry.
-/
import proofs.«411638_j26044681682965_2_alg».proof.Proof.Gen.KernelIdeal.Frame
import proofs.«411638_j26044681682965_2_alg».proof.Proof.Spec
import proofs.«411638_j26044681682965_2_alg».proof.Proof.Block1MM
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## From blocks to the array -/

/-- A block sits at offset zero of its staging buffer on both axes. -/
theorem origin2' : (![0, 0] : Fin 2 → Nat) = fun _ => 0 := funext fun a => by fin_cases a <;> rfl

/-- The printed index maps, decided over the 125 grid points: the left operand's block is on the output block's row
    of blocks and at column block 0, the right operand's block is the whole array, and the output's block at point
    `t` is row block `t`, column block 0. -/
theorem index_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the product of the two whole arrays as the region finds them. -/
theorem flushed_eq1 (c : Dev nD) (t : Fin cfg1.N) :
    (dat1 (F := Ideal) V c).flushed 2 t
      = ((cfg1.win 2).blk t).view.read (Elt Ideal) (Cert.Spec.mm (M := 150000) (K := 16) (N := 7) (V c main_v11) (V c main_arg6)) := by
  show (cfg1.win 2).cut (grid1.coords t) ((dat1 V c).after 2 t) = _
  rw [after1_2]
  unfold out1_2
  rw [View.canon_unit_zero origin2']
  simp only [View.ld_unit_zero (S := S1200x16) origin2', View.ld_unit_zero (S := S16x7) origin2']
  obtain ⟨e0, e1, e2, e3, e4, e5⟩ := index_facts1 t
  funext j
  show k1_pay1 (iblk1 V c 0 t) (iblk1 V c 1 t) (win1_2.xinj (grid1.coords t) j) = Cert.Spec.mm (M := 150000) (K := 16) (N := 7) (V c main_v11) (V c main_arg6) (((cfg1.win 2).blk t).view.emb j)
  refine (block1_mm _ _ _).trans ?_
  rw [Cert.Spec.mm_apply]
  refine Finset.sum_congr rfl fun k _ => ?_
  have h0 : ((cfg1.win 0).blk t).view.emb (ix2 (⟨(j 0).val, (j 0).isLt⟩ : Fin 1200) k)
      = Cert.Spec.at2 (⟨((((cfg1.win 2).blk t).view.emb j) 0).val, ((((cfg1.win 2).blk t).view.emb j) 0).isLt⟩ : Fin 150000) k := by
    funext a; apply Fin.ext
    match a with
    | ⟨0, _⟩ => show win1_0.index t (0 : Fin 2) * 1200 + 1 * (j 0).val = win1_2.index t (0 : Fin 2) * 1200 + 1 * (j 0).val; rw [e0]
    | ⟨1, _⟩ => show win1_0.index t (1 : Fin 2) * 16 + 1 * k.val = k.val; omega
  have h1 : ((cfg1.win 1).blk t).view.emb (ix2 k (⟨(j 1).val, (j 1).isLt⟩ : Fin 7))
      = Cert.Spec.at2 k (⟨((((cfg1.win 2).blk t).view.emb j) 1).val, ((((cfg1.win 2).blk t).view.emb j) 1).isLt⟩ : Fin 7) := by
    funext a; apply Fin.ext
    match a with
    | ⟨0, _⟩ => show win1_1.index t (0 : Fin 2) * 16 + 1 * k.val = k.val; omega
    | ⟨1, _⟩ => show win1_1.index t (1 : Fin 2) * 7 + 1 * (j 1).val = win1_2.index t (1 : Fin 2) * 7 + 1 * (j 1).val; omega
  exact congrArg₂ (· * ·) (congrArg (V c main_v11) h0) (congrArg (V c main_arg6) h1)

/-- An index of the array is in point `t`'s block iff each coordinate is in the block's range on its axis. -/
theorem mem_blk1 (t : Fin cfg1.N) (i : S150000x7.Idx) :
    i ∈ ((cfg1.win 2).blk t).view.set ↔ ∀ a : Fin 2, win1_2.index t a * S1200x7.size a ≤ (i a).val ∧ (i a).val < win1_2.index t a * S1200x7.size a + S1200x7.size a := by
  show i ∈ ((View.whole main_v12).slice (win1_2.rect t)).set ↔ _
  rw [View.set_slice_whole, Rect.mem_set_unit]
  exact Iff.rfl

/-- Every index of the array is in the block of the point its row falls in: row `r` lies in row block `r / 1200`,
    and every point writes its block back. -/
theorem cover1 (i : S150000x7.Idx) :
    ∃ t : Fin cfg1.N, (cfg1.win 2).flush t = true ∧ i ∈ ((cfg1.win 2).blk t).view.set := by
  have hi0 : (i 0).val < 150000 := (i 0).isLt
  have hi1 : (i 1).val < 7 := (i 1).isLt
  have hN : (i 0).val / 1200 < cfg1.N := by
    show (i 0).val / 1200 < grid1.N
    rw [N_1]; omega
  obtain ⟨e0, e1, e2, e3, e4, e5⟩ := index_facts1 ⟨(i 0).val / 1200, hN⟩
  have e4' : win1_2.index ⟨(i 0).val / 1200, hN⟩ (0 : Fin 2) = (i 0).val / 1200 := e4
  refine ⟨⟨(i 0).val / 1200, hN⟩, flush1_2 _, ?_⟩
  rw [mem_blk1]
  intro a
  match a with
  | ⟨0, _⟩ =>
    show win1_2.index ⟨(i 0).val / 1200, hN⟩ (0 : Fin 2) * 1200 ≤ (i 0).val ∧ (i 0).val < win1_2.index ⟨(i 0).val / 1200, hN⟩ (0 : Fin 2) * 1200 + 1200
    omega
  | ⟨1, _⟩ =>
    show win1_2.index ⟨(i 0).val / 1200, hN⟩ (1 : Fin 2) * 7 ≤ (i 1).val ∧ (i 1).val < win1_2.index ⟨(i 0).val / 1200, hN⟩ (1 : Fin 2) * 7 + 7
    omega

/-- REGION 1's output array after its 125 write-backs is the product of the two whole arrays the region finds. -/
theorem region1_value (c : Dev nD) :
    (dat1 (F := Ideal) V c).arrAt 2 cfg1.N = Cert.Spec.mm (M := 150000) (K := 16) (N := 7) (V c main_v11) (V c main_arg6) :=
  (dat1 V c).arrAt_eq_of_cover 2 _ (fun t _ => flushed_eq1 V c t) cover1

end Cert.KernelIdeal.RegionValue

end
-- ==== Proof.KernelValue.lean ====
/-
  What the kernel program leaves in its result buffer, as one function of the argument arrays. The run's buffer contents
  at the last boundary are a fold through @main: region 0 leaves `features · W1` (the product of the whole arrays, block by
  block) in its output array; the host stretch up to region 1 turns it into the first layer's output
  `agg16 (take16 · src) dst adj b1`; region 1 leaves that array's product with `W2`; the last host stretch ends at
  `agg7 (take7 · src) dst adj b2`. No host operation and no region writes an argument array, so each is read back as launched.
-/
import proofs.«411638_j26044681682965_2_alg».proof.Proof.Gen.KernelIdeal.Frame
import proofs.«411638_j26044681682965_2_alg».proof.Proof.KernelTails
import proofs.«411638_j26044681682965_2_alg».proof.Proof.Spec
import proofs.«411638_j26044681682965_2_alg».proof.Proof.Region0Value
import proofs.«411638_j26044681682965_2_alg».proof.Proof.Region1Value
import Idealize.ShloMosaic.Lib.StableHlo.Run

set_option maxRecDepth 16384

noncomputable section

namespace Cert.KernelIdeal.ValueK

open Cert.KernelIdeal Cert.KernelIdeal.Gen Cert.KernelIdeal.Tails
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Typed references: a value met at a buffer of its own type is itself

A module-local function's operations read and write their buffers through a transport along "the buffer's type is the
value's type"; both are the same literal type, so each transport is the identity. Where one such operation's value feeds
another's, the two transports cancel whatever the types (`cast_cast_cancel`); where a value passes between such an
operation and an ordinary one, the single transport is the identity by computation, one lemma per buffer. -/

/-- A value carried to a buffer's own type and back is itself. -/
theorem cast_cast_cancel {α β : Sort _} (h' : α = β) (h : β = α) (v : α) : cast h (cast h' v) = v := by
  subst h'; rfl

theorem ofBuf_main_arg1 (v : (main_arg1 : Ref sig .tc).ty.Contents (Elt F)) (h1 h2 h3) :
    (TRef.of (T := ⟨S4800000, .i32⟩) main_arg1 h1 h2 h3).ofBuf (Val := Elt F) v = v := rfl
theorem toBuf_main_arg1 (v : (⟨S4800000, .i32⟩ : BufTy).Contents (Elt F)) (h1 h2 h3) :
    (TRef.of (T := ⟨S4800000, .i32⟩) main_arg1 h1 h2 h3).toBuf (Val := Elt F) v = v := rfl
theorem ofBuf_main_v0 (v : (main_v0 : Ref sig .tc).ty.Contents (Elt F)) (h1 h2 h3) :
    (TRef.of (T := ⟨S150000x16, .f32⟩) main_v0 h1 h2 h3).ofBuf (Val := Elt F) v = v := rfl
theorem toBuf_main_v0 (v : (⟨S150000x16, .f32⟩ : BufTy).Contents (Elt F)) (h1 h2 h3) :
    (TRef.of (T := ⟨S150000x16, .f32⟩) main_v0 h1 h2 h3).toBuf (Val := Elt F) v = v := rfl
theorem ofBuf_main_v2 (v : (main_v2 : Ref sig .tc).ty.Contents (Elt F)) (h1 h2 h3) :
    (TRef.of (T := ⟨S4800000x16, .f32⟩) main_v2 h1 h2 h3).ofBuf (Val := Elt F) v = v := rfl
theorem toBuf_main_v2 (v : (⟨S4800000x16, .f32⟩ : BufTy).Contents (Elt F)) (h1 h2 h3) :
    (TRef.of (T := ⟨S4800000x16, .f32⟩) main_v2 h1 h2 h3).toBuf (Val := Elt F) v = v := rfl
theorem ofBuf_main_v10 (v : (main_v10 : Ref sig .tc).ty.Contents (Elt F)) (h1 h2 h3) :
    (TRef.of (T := ⟨S150000x16, .f32⟩) main_v10 h1 h2 h3).ofBuf (Val := Elt F) v = v := rfl
theorem toBuf_main_v10 (v : (⟨S150000x16, .f32⟩ : BufTy).Contents (Elt F)) (h1 h2 h3) :
    (TRef.of (T := ⟨S150000x16, .f32⟩) main_v10 h1 h2 h3).toBuf (Val := Elt F) v = v := rfl
theorem ofBuf_main_v11 (v : (main_v11 : Ref sig .tc).ty.Contents (Elt F)) (h1 h2 h3) :
    (TRef.of (T := ⟨S150000x16, .f32⟩) main_v11 h1 h2 h3).ofBuf (Val := Elt F) v = v := rfl
theorem toBuf_main_v11 (v : (⟨S150000x16, .f32⟩ : BufTy).Contents (Elt F)) (h1 h2 h3) :
    (TRef.of (T := ⟨S150000x16, .f32⟩) main_v11 h1 h2 h3).toBuf (Val := Elt F) v = v := rfl
theorem ofBuf_main_v12 (v : (main_v12 : Ref sig .tc).ty.Contents (Elt F)) (h1 h2 h3) :
    (TRef.of (T := ⟨S150000x7, .f32⟩) main_v12 h1 h2 h3).ofBuf (Val := Elt F) v = v := rfl
theorem toBuf_main_v12 (v : (⟨S150000x7, .f32⟩ : BufTy).Contents (Elt F)) (h1 h2 h3) :
    (TRef.of (T := ⟨S150000x7, .f32⟩) main_v12 h1 h2 h3).toBuf (Val := Elt F) v = v := rfl
theorem ofBuf_main_v14 (v : (main_v14 : Ref sig .tc).ty.Contents (Elt F)) (h1 h2 h3) :
    (TRef.of (T := ⟨S4800000x7, .f32⟩) main_v14 h1 h2 h3).ofBuf (Val := Elt F) v = v := rfl
theorem toBuf_main_v14 (v : (⟨S4800000x7, .f32⟩ : BufTy).Contents (Elt F)) (h1 h2 h3) :
    (TRef.of (T := ⟨S4800000x7, .f32⟩) main_v14 h1 h2 h3).toBuf (Val := Elt F) v = v := rfl
theorem ofBuf_main_v22 (v : (main_v22 : Ref sig .tc).ty.Contents (Elt F)) (h1 h2 h3) :
    (TRef.of (T := ⟨S150000x7, .f32⟩) main_v22 h1 h2 h3).ofBuf (Val := Elt F) v = v := rfl
theorem toBuf_main_v22 (v : (⟨S150000x7, .f32⟩ : BufTy).Contents (Elt F)) (h1 h2 h3) :
    (TRef.of (T := ⟨S150000x7, .f32⟩) main_v22 h1 h2 h3).toBuf (Val := Elt F) v = v := rfl
theorem ofBuf_main_v23 (v : (main_v23 : Ref sig .tc).ty.Contents (Elt F)) (h1 h2 h3) :
    (TRef.of (T := ⟨S150000x7, .f32⟩) main_v23 h1 h2 h3).ofBuf (Val := Elt F) v = v := rfl
theorem toBuf_main_v23 (v : (⟨S150000x7, .f32⟩ : BufTy).Contents (Elt F)) (h1 h2 h3) :
    (TRef.of (T := ⟨S150000x7, .f32⟩) main_v23 h1 h2 h3).toBuf (Val := Elt F) v = v := rfl

/-! ## The two host stretches, each as a function of what it is entered with -/

set_option maxHeartbeats 2000000 in
/-- From region 0's exit to region 1's entry: the first layer's output is `agg16` of fill mode's gather of region 0's array. -/
theorem stretch1 (c : Dev nD) :
    W5 m ρ c (Proc.devRef .tc main_v11)
      = agg16 (take16 (W1 m ρ c (Proc.devRef .tc main_v0)) (W1 m ρ c (Proc.devRef .tc main_arg1)))
          (W1 m ρ c (Proc.devRef .tc main_arg2)) (W1 m ρ c (Proc.devRef .tc main_arg3)) (W1 m ρ c (Proc.devRef .tc main_arg5)) := by
  show StableHlo.after hostOps1_3 (StableHlo.after hostOps1_2 (StableHlo.after hostOps1_1 (StableHlo.after hostOps1 (W1 m ρ c)))) (Proc.devRef .tc main_v11) = _
  generalize W1 m ρ c = W
  simp only [hostOps1, hostOps1_1, hostOps1_2, hostOps1_3]
  after_results_simp
  simp only [ofBuf_main_arg1, toBuf_main_arg1, ofBuf_main_v0, toBuf_main_v0, ofBuf_main_v2, toBuf_main_v2, ofBuf_main_v10, toBuf_main_v10, ofBuf_main_v11, toBuf_main_v11, ofBuf_main_v12, toBuf_main_v12, ofBuf_main_v14, toBuf_main_v14, ofBuf_main_v22, toBuf_main_v22, ofBuf_main_v23, toBuf_main_v23]
  simp only [TRef.ofBuf, TRef.toBuf, cast_cast_cancel]
  rfl

set_option maxHeartbeats 2000000 in
/-- From region 1's exit to the return: the result is `agg7` of fill mode's gather of region 1's array. -/
theorem stretch2 (c : Dev nD) :
    W10 m ρ c (Proc.devRef .tc main_v23)
      = agg7 (take7 (W6 m ρ c (Proc.devRef .tc main_v12)) (W6 m ρ c (Proc.devRef .tc main_arg1)))
          (W6 m ρ c (Proc.devRef .tc main_arg2)) (W6 m ρ c (Proc.devRef .tc main_arg3)) (W6 m ρ c (Proc.devRef .tc main_arg7)) := by
  show StableHlo.after hostOps2_3 (StableHlo.after hostOps2_2 (StableHlo.after hostOps2_1 (StableHlo.after hostOps2 (W6 m ρ c)))) (Proc.devRef .tc main_v23) = _
  generalize W6 m ρ c = W
  simp only [hostOps2, hostOps2_1, hostOps2_2, hostOps2_3]
  after_results_simp
  simp only [ofBuf_main_arg1, toBuf_main_arg1, ofBuf_main_v0, toBuf_main_v0, ofBuf_main_v2, toBuf_main_v2, ofBuf_main_v10, toBuf_main_v10, ofBuf_main_v11, toBuf_main_v11, ofBuf_main_v12, toBuf_main_v12, ofBuf_main_v14, toBuf_main_v14, ofBuf_main_v22, toBuf_main_v22, ofBuf_main_v23, toBuf_main_v23]
  simp only [TRef.ofBuf, TRef.toBuf, cast_cast_cancel]
  rfl

/-! ## The argument arrays at the boundaries: nothing writes them -/

/-- One host stretch leaves a buffer it does not write as it was (each operation's written buffer is another one). -/
local macro "kept_by" l:ident : tactic =>
  `(tactic| exact StableHlo.after_of_forall_not_mem _ _ (List.forall_iff_forall_mem.mp (by
      simp only [$l:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W1_arg1 (c : Dev nD) : W1 m ρ c (Proc.devRef .tc main_arg1) = m ((c : Thread nD τ).loc main_arg1) := W1_of_ne m ρ c main_arg1 (by decide)
theorem W1_arg2 (c : Dev nD) : W1 m ρ c (Proc.devRef .tc main_arg2) = m ((c : Thread nD τ).loc main_arg2) := W1_of_ne m ρ c main_arg2 (by decide)
theorem W1_arg3 (c : Dev nD) : W1 m ρ c (Proc.devRef .tc main_arg3) = m ((c : Thread nD τ).loc main_arg3) := W1_of_ne m ρ c main_arg3 (by decide)
theorem W1_arg5 (c : Dev nD) : W1 m ρ c (Proc.devRef .tc main_arg5) = m ((c : Thread nD τ).loc main_arg5) := W1_of_ne m ρ c main_arg5 (by decide)
theorem W1_arg6 (c : Dev nD) : W1 m ρ c (Proc.devRef .tc main_arg6) = m ((c : Thread nD τ).loc main_arg6) := W1_of_ne m ρ c main_arg6 (by decide)
theorem W1_arg7 (c : Dev nD) : W1 m ρ c (Proc.devRef .tc main_arg7) = m ((c : Thread nD τ).loc main_arg7) := W1_of_ne m ρ c main_arg7 (by decide)

/-- Region 1's entry contents at a buffer none of the four host stretches before it writes are region 0's exit contents. -/
theorem W5_of_W1 (c : Dev nD) (r : Ref sig .tc)
    (h1 : StableHlo.after hostOps1 (W1 m ρ c) (Proc.devRef .tc r) = W1 m ρ c (Proc.devRef .tc r))
    (h2 : StableHlo.after hostOps1_1 (W2 m ρ c) (Proc.devRef .tc r) = W2 m ρ c (Proc.devRef .tc r))
    (h3 : StableHlo.after hostOps1_2 (W3 m ρ c) (Proc.devRef .tc r) = W3 m ρ c (Proc.devRef .tc r))
    (h4 : StableHlo.after hostOps1_3 (W4 m ρ c) (Proc.devRef .tc r) = W4 m ρ c (Proc.devRef .tc r)) :
    W5 m ρ c (Proc.devRef .tc r) = W1 m ρ c (Proc.devRef .tc r) :=
  h4.trans (h3.trans (h2.trans h1))

theorem W5_arg1 (c : Dev nD) : W5 m ρ c (Proc.devRef .tc main_arg1) = m ((c : Thread nD τ).loc main_arg1) :=
  (W5_of_W1 m ρ c main_arg1 (by kept_by hostOps1) (by kept_by hostOps1_1) (by kept_by hostOps1_2) (by kept_by hostOps1_3)).trans (W1_arg1 m ρ c)
theorem W5_arg2 (c : Dev nD) : W5 m ρ c (Proc.devRef .tc main_arg2) = m ((c : Thread nD τ).loc main_arg2) :=
  (W5_of_W1 m ρ c main_arg2 (by kept_by hostOps1) (by kept_by hostOps1_1) (by kept_by hostOps1_2) (by kept_by hostOps1_3)).trans (W1_arg2 m ρ c)
theorem W5_arg3 (c : Dev nD) : W5 m ρ c (Proc.devRef .tc main_arg3) = m ((c : Thread nD τ).loc main_arg3) :=
  (W5_of_W1 m ρ c main_arg3 (by kept_by hostOps1) (by kept_by hostOps1_1) (by kept_by hostOps1_2) (by kept_by hostOps1_3)).trans (W1_arg3 m ρ c)
theorem W5_arg6 (c : Dev nD) : W5 m ρ c (Proc.devRef .tc main_arg6) = m ((c : Thread nD τ).loc main_arg6) :=
  (W5_of_W1 m ρ c main_arg6 (by kept_by hostOps1) (by kept_by hostOps1_1) (by kept_by hostOps1_2) (by kept_by hostOps1_3)).trans (W1_arg6 m ρ c)
theorem W5_arg7 (c : Dev nD) : W5 m ρ c (Proc.devRef .tc main_arg7) = m ((c : Thread nD τ).loc main_arg7) :=
  (W5_of_W1 m ρ c main_arg7 (by kept_by hostOps1) (by kept_by hostOps1_1) (by kept_by hostOps1_2) (by kept_by hostOps1_3)).trans (W1_arg7 m ρ c)

theorem W6_arg1 (c : Dev nD) : W6 m ρ c (Proc.devRef .tc main_arg1) = m ((c : Thread nD τ).loc main_arg1) := (W6_of_ne m ρ c main_arg1 (by decide)).trans (W5_arg1 m ρ c)
theorem W6_arg2 (c : Dev nD) : W6 m ρ c (Proc.devRef .tc main_arg2) = m ((c : Thread nD τ).loc main_arg2) := (W6_of_ne m ρ c main_arg2 (by decide)).trans (W5_arg2 m ρ c)
theorem W6_arg3 (c : Dev nD) : W6 m ρ c (Proc.devRef .tc main_arg3) = m ((c : Thread nD τ).loc main_arg3) := (W6_of_ne m ρ c main_arg3 (by decide)).trans (W5_arg3 m ρ c)
theorem W6_arg7 (c : Dev nD) : W6 m ρ c (Proc.devRef .tc main_arg7) = m ((c : Thread nD τ).loc main_arg7) := (W6_of_ne m ρ c main_arg7 (by decide)).trans (W5_arg7 m ρ c)

end Cert.KernelIdeal.ValueK

/-! ## The result at `Ideal` -/

namespace Cert.KernelIdeal.ValueK

open Cert.KernelIdeal Cert.KernelIdeal.Gen Cert.KernelIdeal.Tails
open Idealize.ShloMosaic Idealize.ShloMosaic.TcCoe Idealize.SL.Sem Idealize.ShloMosaic.StableHlo

variable (m : (ℓ : Loc nD τ sig) → Buf (Elt Ideal) ℓ) (ρ : Dev nD → PrngReg)

/-- Region 0's output array after the region: the product of the argument arrays `features` and `W1`. -/
theorem W1_v0 (c : Dev nD) :
    W1 m ρ c (Proc.devRef .tc main_v0)
      = Cert.Spec.mm (M := 150000) (K := 1433) (N := 16) (m ((c : Thread nD τ).loc main_arg0)) (m ((c : Thread nD τ).loc main_arg4)) :=
  (W1_arr m ρ c 2).trans (Cert.KernelIdeal.RegionValue.region0_value (V0 m ρ) c)

/-- Region 1's output array after the region: the product of the first layer's output with `W2`. -/
theorem W6_v12 (c : Dev nD) :
    W6 m ρ c (Proc.devRef .tc main_v12)
      = Cert.Spec.mm (M := 150000) (K := 16) (N := 7) (W5 m ρ c (Proc.devRef .tc main_v11)) (m ((c : Thread nD τ).loc main_arg6)) :=
  (W6_arr m ρ c 2).trans ((Cert.KernelIdeal.RegionValue.region1_value (V5 m ρ) c).trans (by rw [show V5 m ρ c main_arg6 = W5 m ρ c (Proc.devRef .tc main_arg6) from rfl, W5_arg6]))

/-- THE KERNEL PROGRAM'S RESULT as one function of the argument arrays. -/
def result (c : Dev nD) : FVec Ideal S150000x7 .f32 :=
  agg7 (F := Ideal) (take7 (F := Ideal)
      (Cert.Spec.mm (M := 150000) (K := 16) (N := 7)
        (agg16 (F := Ideal) (take16 (F := Ideal)
            (Cert.Spec.mm (M := 150000) (K := 1433) (N := 16) (m ((c : Thread nD τ).loc main_arg0)) (m ((c : Thread nD τ).loc main_arg4)))
            (m ((c : Thread nD τ).loc main_arg1)))
          (m ((c : Thread nD τ).loc main_arg2)) (m ((c : Thread nD τ).loc main_arg3)) (m ((c : Thread nD τ).loc main_arg5)))
        (m ((c : Thread nD τ).loc main_arg6)))
      (m ((c : Thread nD τ).loc main_arg1)))
    (m ((c : Thread nD τ).loc main_arg2)) (m ((c : Thread nD τ).loc main_arg3)) (m ((c : Thread nD τ).loc main_arg7))

theorem W10_result (c : Dev nD) : W10 m ρ c (Proc.devRef .tc main_v23) = result m c := by
  rw [stretch2, W6_v12, stretch1, W1_v0, W1_arg1, W1_arg2, W1_arg3, W1_arg5, W6_arg1, W6_arg2, W6_arg3, W6_arg7]
  rfl

end Cert.KernelIdeal.ValueK

end
-- ==== Proof.RefDots.lean ====
/-
  The reference program's two `dot_general`s, read as the matrix product `Cert.Spec.mm` at `Ideal`.
  Each contracts axis 1 of its left operand with axis 0 of its right operand and has no batch axis, so at an
  output index (r, c) and a contraction index k the left operand is read at (r, k) and the right at (k, c):
  four coordinate facts per shape record, one per operand axis. The contraction index set has one axis; summing
  over it is summing over `Fin K` (`ValueIdx.contrEquiv1`), which is the sum that defines `mm`.
-/
import proofs.«411638_j26044681682965_2_alg».proof.ReferenceIdeal
import proofs.«411638_j26044681682965_2_alg».proof.Proof.Gen.ReferenceIdeal
import proofs.«411638_j26044681682965_2_alg».proof.Proof.Spec
import Idealize.ShloMosaic.Lib.ValueIdx
import Idealize.ShloMosaic.PureOps.Ideal.Laws

noncomputable section

namespace Cert.ReferenceIdeal.RefDots

open Cert.ReferenceIdeal Cert.ReferenceIdeal.Gen Idealize.ShloMosaic Idealize.ShloMosaic.TcCoe Idealize.SL.Sem Idealize.ShloMosaic.StableHlo

/-! ## The first product: [150000 × 1433] · [1433 × 16] -/

/-- Left operand, axis 0: the output's row. -/
theorem lhs1_0 (i : S150000x16.Idx) (q : dot_S150000x1433_S1433x16_S150000x16_1_0_0_1_n_n.contr.Idx) :
    (dot_S150000x1433_S1433x16_S150000x16_1_0_0_1_n_n.lhsIdx i q 0).val = (i 0).val := by
  unfold DotDims.lhsIdx
  rw [dif_neg (show ¬(0 : Fin S150000x1433.rank) ∈ dot_S150000x1433_S1433x16_S150000x16_1_0_0_1_n_n.lhsBatch by decide),
    dif_pos (show (0 : Fin S150000x1433.rank) ∈ dot_S150000x1433_S1433x16_S150000x16_1_0_0_1_n_n.lhsNonContracting by decide)]
  rfl
/-- Left operand, axis 1: the contraction index. -/
theorem lhs1_1 (i : S150000x16.Idx) (q : dot_S150000x1433_S1433x16_S150000x16_1_0_0_1_n_n.contr.Idx) :
    (dot_S150000x1433_S1433x16_S150000x16_1_0_0_1_n_n.lhsIdx i q 1).val = (q ⟨0, by decide⟩).val :=
  dot_S150000x1433_S1433x16_S150000x16_1_0_0_1_n_n.lhsIdx_val_of_single rfl i q
/-- Right operand, axis 0: the contraction index. -/
theorem rhs1_0 (i : S150000x16.Idx) (q : dot_S150000x1433_S1433x16_S150000x16_1_0_0_1_n_n.contr.Idx) :
    (dot_S150000x1433_S1433x16_S150000x16_1_0_0_1_n_n.rhsIdx i q 0).val = (q ⟨0, by decide⟩).val :=
  dot_S150000x1433_S1433x16_S150000x16_1_0_0_1_n_n.rhsIdx_val_of_single rfl i q
/-- Right operand, axis 1: the output's column. -/
theorem rhs1_1 (i : S150000x16.Idx) (q : dot_S150000x1433_S1433x16_S150000x16_1_0_0_1_n_n.contr.Idx) :
    (dot_S150000x1433_S1433x16_S150000x16_1_0_0_1_n_n.rhsIdx i q 1).val = (i 1).val := by
  unfold DotDims.rhsIdx
  rw [dif_neg (show ¬(1 : Fin S1433x16.rank) ∈ dot_S150000x1433_S1433x16_S150000x16_1_0_0_1_n_n.rhsBatch by decide),
    dif_pos (show (1 : Fin S1433x16.rank) ∈ dot_S150000x1433_S1433x16_S150000x16_1_0_0_1_n_n.rhsNonContracting by decide)]
  rfl

/-- The first `dot_general` is the product of its operands. -/
theorem dot1_eq_mm (x : FVec Ideal S150000x1433 .f32) (w : FVec Ideal S1433x16 .f32) :
    Host.dotGeneral (F := Ideal) dot_S150000x1433_S1433x16_S150000x16_1_0_0_1_n_n none x w = Cert.Spec.mm (M := 150000) (K := 1433) (N := 16) x w := by
  funext i
  rw [Cert.Spec.mm_apply]
  simp only [Host.dotGeneral]
  rw [Ideal.dotGeneral_apply, ← Equiv.sum_comp (ValueIdx.contrEquiv1 dot_S150000x1433_S1433x16_S150000x16_1_0_0_1_n_n 1433 rfl rfl).symm]
  refine Finset.sum_congr rfl fun k _ => ?_
  have hk := ValueIdx.contrEquiv1_symm_val dot_S150000x1433_S1433x16_S150000x16_1_0_0_1_n_n 1433 rfl rfl k
  have el : dot_S150000x1433_S1433x16_S150000x16_1_0_0_1_n_n.lhsIdx i ((ValueIdx.contrEquiv1 dot_S150000x1433_S1433x16_S150000x16_1_0_0_1_n_n 1433 rfl rfl).symm k)
      = Cert.Spec.at2 (⟨(i 0).val, (i 0).isLt⟩ : Fin 150000) k := funext fun a => Fin.ext (by
    match a with
    | ⟨0, _⟩ => exact lhs1_0 _ _
    | ⟨1, _⟩ => exact (lhs1_1 _ _).trans hk)
  have er : dot_S150000x1433_S1433x16_S150000x16_1_0_0_1_n_n.rhsIdx i ((ValueIdx.contrEquiv1 dot_S150000x1433_S1433x16_S150000x16_1_0_0_1_n_n 1433 rfl rfl).symm k)
      = Cert.Spec.at2 k (⟨(i 1).val, (i 1).isLt⟩ : Fin 16) := funext fun a => Fin.ext (by
    match a with
    | ⟨0, _⟩ => exact (rhs1_0 _ _).trans hk
    | ⟨1, _⟩ => exact rhs1_1 _ _)
  rw [el, er]

/-! ## The second product: [150000 × 16] · [16 × 7] -/

/-- Left operand, axis 0: the output's row. -/
theorem lhs2_0 (i : S150000x7.Idx) (q : dot_S150000x16_S16x7_S150000x7_1_0_0_1_n_n.contr.Idx) :
    (dot_S150000x16_S16x7_S150000x7_1_0_0_1_n_n.lhsIdx i q 0).val = (i 0).val := by
  unfold DotDims.lhsIdx
  rw [dif_neg (show ¬(0 : Fin S150000x16.rank) ∈ dot_S150000x16_S16x7_S150000x7_1_0_0_1_n_n.lhsBatch by decide),
    dif_pos (show (0 : Fin S150000x16.rank) ∈ dot_S150000x16_S16x7_S150000x7_1_0_0_1_n_n.lhsNonContracting by decide)]
  rfl
/-- Left operand, axis 1: the contraction index. -/
theorem lhs2_1 (i : S150000x7.Idx) (q : dot_S150000x16_S16x7_S150000x7_1_0_0_1_n_n.contr.Idx) :
    (dot_S150000x16_S16x7_S150000x7_1_0_0_1_n_n.lhsIdx i q 1).val = (q ⟨0, by decide⟩).val :=
  dot_S150000x16_S16x7_S150000x7_1_0_0_1_n_n.lhsIdx_val_of_single rfl i q
/-- Right operand, axis 0: the contraction index. -/
theorem rhs2_0 (i : S150000x7.Idx) (q : dot_S150000x16_S16x7_S150000x7_1_0_0_1_n_n.contr.Idx) :
    (dot_S150000x16_S16x7_S150000x7_1_0_0_1_n_n.rhsIdx i q 0).val = (q ⟨0, by decide⟩).val :=
  dot_S150000x16_S16x7_S150000x7_1_0_0_1_n_n.rhsIdx_val_of_single rfl i q
/-- Right operand, axis 1: the output's column. -/
theorem rhs2_1 (i : S150000x7.Idx) (q : dot_S150000x16_S16x7_S150000x7_1_0_0_1_n_n.contr.Idx) :
    (dot_S150000x16_S16x7_S150000x7_1_0_0_1_n_n.rhsIdx i q 1).val = (i 1).val := by
  unfold DotDims.rhsIdx
  rw [dif_neg (show ¬(1 : Fin S16x7.rank) ∈ dot_S150000x16_S16x7_S150000x7_1_0_0_1_n_n.rhsBatch by decide),
    dif_pos (show (1 : Fin S16x7.rank) ∈ dot_S150000x16_S16x7_S150000x7_1_0_0_1_n_n.rhsNonContracting by decide)]
  rfl

/-- The second `dot_general` is the product of its operands. -/
theorem dot2_eq_mm (x : FVec Ideal S150000x16 .f32) (w : FVec Ideal S16x7 .f32) :
    Host.dotGeneral (F := Ideal) dot_S150000x16_S16x7_S150000x7_1_0_0_1_n_n none x w = Cert.Spec.mm (M := 150000) (K := 16) (N := 7) x w := by
  funext i
  rw [Cert.Spec.mm_apply]
  simp only [Host.dotGeneral]
  rw [Ideal.dotGeneral_apply, ← Equiv.sum_comp (ValueIdx.contrEquiv1 dot_S150000x16_S16x7_S150000x7_1_0_0_1_n_n 16 rfl rfl).symm]
  refine Finset.sum_congr rfl fun k _ => ?_
  have hk := ValueIdx.contrEquiv1_symm_val dot_S150000x16_S16x7_S150000x7_1_0_0_1_n_n 16 rfl rfl k
  have el : dot_S150000x16_S16x7_S150000x7_1_0_0_1_n_n.lhsIdx i ((ValueIdx.contrEquiv1 dot_S150000x16_S16x7_S150000x7_1_0_0_1_n_n 16 rfl rfl).symm k)
      = Cert.Spec.at2 (⟨(i 0).val, (i 0).isLt⟩ : Fin 150000) k := funext fun a => Fin.ext (by
    match a with
    | ⟨0, _⟩ => exact lhs2_0 _ _
    | ⟨1, _⟩ => exact (lhs2_1 _ _).trans hk)
  have er : dot_S150000x16_S16x7_S150000x7_1_0_0_1_n_n.rhsIdx i ((ValueIdx.contrEquiv1 dot_S150000x16_S16x7_S150000x7_1_0_0_1_n_n 16 rfl rfl).symm k)
      = Cert.Spec.at2 k (⟨(i 1).val, (i 1).isLt⟩ : Fin 7) := funext fun a => Fin.ext (by
    match a with
    | ⟨0, _⟩ => exact (rhs2_0 _ _).trans hk
    | ⟨1, _⟩ => exact rhs2_1 _ _)
  rw [el, er]

end Cert.ReferenceIdeal.RefDots

end
-- ==== Proof.TakeMask.lean ====
/-
  Fill mode's mask is all ones when every source index lies in [0, 150000). A source word in that range is not
  negative, so the start index is the word itself; it is then ≥ 0 and ≤ 149999, both comparisons give 1, and the
  conjunction over the index column's one entry is 1. A select under an all-ones mask is its first branch, so the
  fill-mode gather is the plain gather.
-/
import proofs.«411638_j26044681682965_2_alg».proof.Proof.KernelTails
import Idealize.ShloMosaic.Lib.StableHlo.Predicate
import Idealize.ShloMosaic.PureOps.Reduce

noncomputable section

namespace Cert.KernelIdeal.Tails

open Cert.KernelIdeal Cert.KernelIdeal.Gen Idealize.ShloMosaic

/-- A word below 150000 is not signed-negative, so the wrap-around select keeps it. -/
theorem wrap_select_of_lt (x : BitVec 32) (hx : x.toNat < 150000) :
    Scalar.select (IntOp.cmpi .slt x 0#32) (IntOp.addi x 150000#32) x = x := by
  have hne : ¬ IntOp.cmpi .slt x 0#32 = 1#1 := by
    rw [StableHlo.Predicate.slt_iff_toNat (by omega) (by decide)]
    exact Nat.not_lt_zero _
  unfold Scalar.select
  exact if_neg hne

/-- A word below 150000 compares ≥ 0 and ≤ 149999 (signed). -/
theorem range_test_of_lt (x : BitVec 32) (hx : x.toNat < 150000) :
    IntOp.andi (IntOp.cmpi .sge x 0#32) (IntOp.cmpi .sle x 149999#32) = 1#1 := by
  rw [IntOp.andi_eq_one]
  refine ⟨(StableHlo.Predicate.sge_iff_toNat (by omega) (by decide)).2 (Nat.zero_le _),
    (StableHlo.Predicate.sle_iff_toNat (by omega) (by decide)).2 ?_⟩
  have : (149999#32 : BitVec 32).toNat = 149999 := by decide
  omega

/-- Every start index is below 150000 when every source index is. -/
theorem startIdx_lt (src : IVec S4800000 32) (h : ∀ e : S4800000.Idx, (src e).toNat < 150000) (i : S4800000x1.Idx) :
    (startIdx src i).toNat < 150000 := by
  unfold startIdx
  simp only [broadcastInDim, select, cmpi, addi, constantI]
  rw [wrap_select_of_lt _ (h _)]
  exact h _

/-- A left fold by "and" from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, hl => by
    rw [List.foldl_cons, hl a List.mem_cons_self, show IntOp.andi 1#1 1#1 = 1#1 from by decide]
    exact foldl_andi_ones f l fun n hn => hl n (List.mem_cons_of_mem _ hn)

theorem inBounds_eq_one (src : IVec S4800000 32) (h : ∀ e : S4800000.Idx, (src e).toNat < 150000) :
    inBounds src = fun _ => 1#1 := by
  funext e
  unfold inBounds
  rw [Host.reduce_eq_foldl]
  refine foldl_andi_ones _ _ fun i _ => ?_
  exact range_test_of_lt _ (startIdx_lt src h i)

variable {F : FTy → Type} [FloatOps F]

theorem take16_eq_gather16 (xw : FVec F S150000x16 .f32) (src : IVec S4800000 32)
    (h : ∀ e : S4800000.Idx, (src e).toNat < 150000) : take16 xw src = gather16 xw src := by
  funext i
  unfold take16
  rw [inBounds_eq_one src h]
  show Scalar.select (1#1) _ _ = _
  unfold Scalar.select
  exact if_pos rfl

theorem take7_eq_gather7 (xw : FVec F S150000x7 .f32) (src : IVec S4800000 32)
    (h : ∀ e : S4800000.Idx, (src e).toNat < 150000) : take7 xw src = gather7 xw src := by
  funext i
  unfold take7
  rw [inBounds_eq_one src h]
  show Scalar.select (1#1) _ _ = _
  unfold Scalar.select
  exact if_pos rfl

end Cert.KernelIdeal.Tails

end
-- ==== Proof.Bridge.lean ====
/-
  The two programs' results are one function of the argument arrays. With every `edge_src` entry in [0, 150000) fill
  mode's test is true on every edge, so the kernel program's `jnp.take` is the plain gather the reference performs; and at
  `Ideal` the host's `dot_general` is the same sum of products the kernel regions compute block by block. Everything
  else is the same host arithmetic on both sides (`agg16`, `agg7`), carried unopened.
-/
import proofs.«411638_j26044681682965_2_alg».proof.Proof.KernelTails
import proofs.«411638_j26044681682965_2_alg».proof.Proof.Spec
import proofs.«411638_j26044681682965_2_alg».proof.Proof.RefDots
import proofs.«411638_j26044681682965_2_alg».proof.Proof.TakeMask

noncomputable section

namespace Cert.Bridge

open Idealize.ShloMosaic Idealize.ShloMosaic.TcCoe Idealize.SL.Sem
open Cert.KernelIdeal.Tails

/-- The reference's composed function is the kernel program's, on arrays whose index input is in range. -/
theorem result_fn_eq (a0 : FVec Ideal Cert.KernelIdeal.S150000x1433 .f32) (a1 a2 : IVec Cert.KernelIdeal.S4800000 32)
    (a3 : FVec Ideal Cert.KernelIdeal.S4800000 .f32) (a4 : FVec Ideal Cert.KernelIdeal.S1433x16 .f32) (a5 : FVec Ideal Cert.KernelIdeal.S16 .f32)
    (a6 : FVec Ideal Cert.KernelIdeal.S16x7 .f32) (a7 : FVec Ideal Cert.KernelIdeal.S7 .f32)
    (h : ∀ e : Cert.KernelIdeal.S4800000.Idx, (a1 e).toNat < 150000) :
    agg7 (gather7 (Host.dotGeneral (F := Ideal) Cert.ReferenceIdeal.dot_S150000x16_S16x7_S150000x7_1_0_0_1_n_n none
        (agg16 (gather16 (Host.dotGeneral (F := Ideal) Cert.ReferenceIdeal.dot_S150000x1433_S1433x16_S150000x16_1_0_0_1_n_n none a0 a4) a1) a2 a3 a5) a6) a1) a2 a3 a7
      = agg7 (take7 (Cert.Spec.mm (M := 150000) (K := 16) (N := 7)
        (agg16 (take16 (Cert.Spec.mm (M := 150000) (K := 1433) (N := 16) a0 a4) a1) a2 a3 a5) a6) a1) a2 a3 a7 := by
  rw [take16_eq_gather16 _ _ h, take7_eq_gather7 _ _ h, Cert.ReferenceIdeal.RefDots.dot1_eq_mm, Cert.ReferenceIdeal.RefDots.dot2_eq_mm]

end Cert.Bridge

end
-- ==== Proof.lean ====
/-
  The certificate of a two-layer graph convolution: the kernel program computes `features · W1` and `h1 · W2` in two
  gridded matrix-product regions (125 row blocks of 1200 rows each, the whole right factor resident) and does the
  gather / scale / scatter-add / bias, the relu and the log-softmax on the host, as the reference does.

  Over the extended reals the two programs agree on every input whose `edge_src` entries index rows of the 150000-row
  tables (the added precondition): there fill mode's in-range test of the kernel program's `jnp.take` is true on every
  edge, so its gather is the reference's plain gather; a matrix product computed block of rows by block of rows is
  the product of the whole arrays, and at `Ideal` the region's `tpu.matmul` into a zero accumulator and the host's
  `dot_general` are the same sums of products; the host arithmetic after each gather is the same text in both
  programs and is carried as one function. Finiteness of the float inputs is never used.

  Frames: the two kernel programs' are the generated ones; the reference's is its run with the result dropped.
  `preserves` is `True`: the ideal pass rewrote nothing.
-/
import proofs.«411638_j26044681682965_2_alg».proof.Defs
import proofs.«411638_j26044681682965_2_alg».proof.Proof.Gen.Kernel
import proofs.«411638_j26044681682965_2_alg».proof.Proof.Gen.Kernel.Frame
import proofs.«411638_j26044681682965_2_alg».proof.Proof.Gen.KernelIdeal
import proofs.«411638_j26044681682965_2_alg».proof.Proof.Gen.KernelIdeal.Frame
import proofs.«411638_j26044681682965_2_alg».proof.Proof.Gen.ReferenceIdeal
import proofs.«411638_j26044681682965_2_alg».proof.Proof.Gen.Pre_finite_inputs
import proofs.«411638_j26044681682965_2_alg».proof.Proof.IndexRange
import proofs.«411638_j26044681682965_2_alg».proof.Proof.KernelRun
import proofs.«411638_j26044681682965_2_alg».proof.Proof.KernelValue
import proofs.«411638_j26044681682965_2_alg».proof.Proof.RefRun
import proofs.«411638_j26044681682965_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RunP.run (F := Ideal) m ρ)

/-- Both runs end with the result buffer at `Cert.KernelIdeal.ValueK.result` of the kernel program's arguments: the
    kernel program's by its launch and the fold through @main; the reference's by its run, its arguments agreeing with
    the kernel program's, its `dot_general`s being the products and the in-range gather being fill mode's. -/
theorem algebraic : Cert.algebraic_KernelIdeal_ReferenceIdeal := by
  intro m ρ m' ρ' hpre hagree
  refine ⟨fun c => Cert.KernelIdeal.ValueK.result m c, ?_, ?_⟩
  · exact (θ_run Cert.KernelIdeal.defs _ _).mono
      (fun _ h c => ⟨(h c).1.trans (Cert.KernelIdeal.ValueK.W10_result m ρ c), (h c).2⟩)
      (Cert.KernelIdeal.RunV.run_result (F := Ideal) m ρ)
  · refine (θ_run Cert.ReferenceIdeal.defs _ _).mono (fun _ h c => ⟨(h c).1.trans ?_, (h c).2⟩)
      (Cert.ReferenceIdeal.RunP.run (F := Ideal) m' ρ')
    have hsrc := Cert.IndexRange.src_lt _ _ _ _ _ _ _ _ (hpre c)
    unfold Cert.ReferenceIdeal.RunP.result Cert.KernelIdeal.ValueK.result
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact Cert.Bridge.result_fn_eq _ _ _ _ _ _ _ _ hsrc

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
